-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S16384x16384 : Shape := ⟨2, ![16384, 16384]⟩
abbrev S512x256 : Shape := ⟨2, ![512, 256]⟩
abbrev S256 : Shape := ⟨1, ![256]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S16384x512 .f32) (main_arg1 : FVec F S16384x16384 .f32) (main_arg2 : FVec F S512x256 .f32) (main_arg3 : FVec F S256 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S16384x512 : Shape := ⟨2, ![16384, 512]⟩
abbrev S16384x16384 : Shape := ⟨2, ![16384, 16384]⟩
abbrev S512x256 : Shape := ⟨2, ![512, 256]⟩
abbrev S256 : Shape := ⟨1, ![256]⟩
abbrev S16384x256 : Shape := ⟨2, ![16384, 256]⟩
abbrev S2048x512 : Shape := ⟨2, ![2048, 512]⟩
abbrev S2048x256 : Shape := ⟨2, ![2048, 256]⟩
abbrev S1x256 : Shape := ⟨2, ![1, 256]⟩
abbrev S1024x2048 : Shape := ⟨2, ![1024, 2048]⟩
abbrev S1024x256 : Shape := ⟨2, ![1024, 256]⟩

abbrev nBuf : Space → Nat
  | .hbm => 6
  | .vmem => 13
  | .smem => 0
  | _ => 0

abbrev bufTy : (tb : Table) → Fin (tcTables nBuf tb) → BufTy
  | .hbm, ⟨0, _⟩ => ⟨S16384x512, .f32⟩
  | .hbm, ⟨1, _⟩ => ⟨S16384x16384, .f32⟩
  | .hbm, ⟨2, _⟩ => ⟨S512x256, .f32⟩
  | .hbm, ⟨3, _⟩ => ⟨S256, .f32⟩
  | .hbm, ⟨4, _⟩ => ⟨S16384x256, .f32⟩
  | .hbm, ⟨5, _⟩ => ⟨S16384x256, .f32⟩
  | .local _ .vmem, ⟨0, _⟩ => ⟨S2048x512, .f32⟩
  | .local _ .vmem, ⟨1, _⟩ => ⟨S2048x512, .f32⟩
  | .local _ .vmem, ⟨2, _⟩ => ⟨S512x256, .f32⟩
  | .local _ .vmem, ⟨3, _⟩ => ⟨S256, .f32⟩
  | .local _ .vmem, ⟨4, _⟩ => ⟨S2048x256, .f32⟩
  | .local _ .vmem, ⟨5, _⟩ => ⟨S2048x256, .f32⟩
  | .local _ .vmem, ⟨6, _⟩ => ⟨S1024x2048, .f32⟩
  | .local _ .vmem, ⟨7, _⟩ => ⟨S1024x2048, .f32⟩
  | .local _ .vmem, ⟨8, _⟩ => ⟨S2048x256, .f32⟩
  | .local _ .vmem, ⟨9, _⟩ => ⟨S2048x256, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![16, 8], ![false, false]⟩

def k1_cond2 (i : grid1.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  inb_S2048x512_S2048x512_0_0 : ∀ a, (![0, 0] : Fin 2 → Nat) a + S2048x512.size a ≤ S2048x512.size a
  h_S2048x512 : 0 < S2048x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S256_S256_0 : ∀ a, (![0] : Fin 1 → Nat) a + S256.size a ≤ S256.size a
  h_S256 : 0 < S256.numel
  shapeCasts_S256_S1x256 : S256.ShapeCasts S1x256
  broadcasts_S1x256_S2048x256 : S1x256.Broadcasts S2048x256
  inb_S2048x256_S2048x256_0_0 : ∀ a, (![0, 0] : Fin 2 → Nat) a + S2048x256.size a ≤ S2048x256.size a
  h_S2048x256 : 0 < S2048x256.numel
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x2048_S1024x2048_0_0 : ∀ a, (![0, 0] : Fin 2 → Nat) a + S1024x2048.size a ≤ S1024x2048.size a
  h_S1024x2048 : 0 < S1024x2048.numel
  shapeCasts_S2048x256_S2048x256 : S2048x256.ShapeCasts S2048x256
  dot_S2048x512_S512x256_S2048x256_1_0_0_1_n_n_wf : DotDims.WF S2048x512 S512x256 S2048x256 [1] [0] [0] [1] [] []
  dot_S1024x2048_S2048x256_S1024x256_1_0_0_1_n_n_wf : DotDims.WF S1024x2048 S2048x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S16384x512.size a
  hwx0_0 : ∀ i : grid0.Coords, EltTy.bits .f32 = 32 ∨ (Rect.block (s := S16384x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S16384x256.size a
  hwx0_3 : ∀ i : grid0.Coords, EltTy.bits .f32 = 32 ∨ (Rect.block (s := S16384x256) S2048x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S16384x16384.size a
  hwx1_0 : ∀ i : grid1.Coords, EltTy.bits .f32 = 32 ∨ (Rect.block (s := S16384x16384) S1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S16384x256.size a
  hwx1_1 : ∀ i : grid1.Coords, EltTy.bits .f32 = 32 ∨ (Rect.block (s := S16384x256) S2048x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x256.size a ≤ S16384x256.size a
  hwx1_2 : ∀ i : grid1.Coords, EltTy.bits .f32 = 32 ∨ (Rect.block (s := S16384x256) S1024x256.size (cc1_transform_2 i) (hinb1_2 i)).WholeWords (EltTy.packing .f32)

variable [Facts₀]

def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf
def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2048x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S16384x512 : Shape := ⟨2, ![16384, 512]⟩
abbrev S16384x16384 : Shape := ⟨2, ![16384, 16384]⟩
abbrev S512x256 : Shape := ⟨2, ![512, 256]⟩
abbrev S256 : Shape := ⟨1, ![256]⟩
abbrev S16384x256 : Shape := ⟨2, ![16384, 256]⟩
abbrev S1x256 : Shape := ⟨2, ![1, 256]⟩

abbrev nBuf : Space → Nat
  | .hbm => 9
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x16384, .f32⟩
  | .hbm, ⟨2, _⟩ => ⟨S512x256, .f32⟩
  | .hbm, ⟨3, _⟩ => ⟨S256, .f32⟩
  | .hbm, ⟨4, _⟩ => ⟨S16384x256, .f32⟩
  | .hbm, ⟨5, _⟩ => ⟨S1x256, .f32⟩
  | .hbm, ⟨6, _⟩ => ⟨S16384x256, .f32⟩
  | .hbm, ⟨7, _⟩ => ⟨S16384x256, .f32⟩
  | .hbm, ⟨8, _⟩ => ⟨S16384x256, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  dot_S16384x512_S512x256_S16384x256_1_0_0_1_n_n_wf : DotDims.WF S16384x512 S512x256 S16384x256 [1] [0] [0] [1] [] []
  dot_S16384x16384_S16384x256_S16384x256_1_0_0_1_n_n_wf : DotDims.WF S16384x16384 S16384x256 S16384x256 [1] [0] [0] [1] [] []

variable [Facts₀]

def dot_S16384x512_S512x256_S16384x256_1_0_0_1_n_n : DotDims S16384x512 S512x256 S16384x256 where
  lhsContracting := [1]
  rhsContracting := [0]
  lhsNonContracting := [0]
  rhsNonContracting := [1]
  lhsBatch := []
  rhsBatch := []
  wf := dot_S16384x512_S512x256_S16384x256_1_0_0_1_n_n_wf
def dot_S16384x16384_S16384x256_S16384x256_1_0_0_1_n_n : DotDims S16384x16384 S16384x256 S16384x256 where
  lhsContracting := [1]
  rhsContracting := [0]
  lhsNonContracting := [0]
  rhsNonContracting := [1]
  lhsBatch := []
  rhsBatch := []
  wf := dot_S16384x16384_S16384x256_S16384x256_1_0_0_1_n_n_wf

class Facts : Prop extends Facts₀ where

variable [Facts]
-- ==== Proof.K.Region0.lean ====
/-
  The projection call (the first of the two pallas_calls), on one core, at the buffer contents `V` the call is
  entered from. Eight grid points; point `t` is handed rows 2048·t … 2048·t + 2047 of X, all of W and all of b,
  and leaves in its output block the product of the X rows with W plus b broadcast along the rows. Nothing is
  kept between points. Stated for any float instance.
-/
import proofs.«102156_j26663156974292_1_alg».proof.Proof.Gen.Kernel.Launch
import proofs.«102156_j26663156974292_1_alg».proof.Proof.Gen.Kernel.Skeleton
import proofs.«102156_j26663156974292_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks a point is handed -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the point fetches it or not
    (W and b are fetched once, their block index never moves). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store take the whole buffer -/

abbrev rX0 : Rect S2048x512 := Rect.unit (s := S2048x512) ![0, 0] S2048x512.size inb_S2048x512_S2048x512_0_0
abbrev rW0 : Rect S512x256 := Rect.unit (s := S512x256) ![0, 0] S512x256.size inb_S512x256_S512x256_0_0
abbrev rB0 : Rect S256 := Rect.unit (s := S256) ![0] S256.size inb_S256_S256_0
abbrev rO0 : Rect S2048x256 := Rect.unit (s := S2048x256) ![0, 0] S2048x256.size inb_S2048x256_S2048x256_0_0

/-- What the body leaves in the output block, from the three input blocks: its one store. -/
def out0_3 (x0 : Vec F S2048x512 .f32) (x1 : Vec F S512x256 .f32) (x2 : Vec F S256 .f32) : Vec F S2048x256 .f32 :=
  View.canon [⟨rO0, k0_pay1 (View.ld x0 rX0) (View.ld x1 rW0) (View.ld x2 rB0)⟩]

/-- The store's rectangle is the whole block. -/
theorem cover0_3 (p0 : Vec F S2048x256 .f32) (y : S2048x256.Idx) :
    ∃ pc ∈ ([⟨rO0, p0⟩] : List (View.Piece (Elt F) S2048x256 .f32)), y ∈ pc.1.set :=
  View.cover_of_tiled [⟨rO0, p0⟩] S2048x256.size (by rfl) y

/-! ## The body's triple -/

set_option maxHeartbeats 1000000 in
/-- On whole staging buffers, the inputs' at `x0 x1 x2` and the output's at anything, the body runs and hands
    back the inputs as they were and the output at `out0_3 x0 x1 x2`. -/
theorem sound_kernel0 (c : Dev nD) (E : Set ℕ) (i : grid0.Coords)
    (arg1 : Memref sig .tc .vmem S2048x512 .f32) (harg1 : arg1.IsWhole) (arg2 : Memref sig .tc .vmem S512x256 .f32) (harg2 : arg2.IsWhole)
    (arg3 : Memref sig .tc .vmem S256 .f32) (harg3 : arg3.IsWhole) (arg4 : Memref sig .tc .vmem S2048x256 .f32) (harg4 : arg4.IsWhole)
    (x0 : Vec F S2048x512 .f32) (x1 : Vec F S512x256 .f32) (x2 : Vec F S256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The call's proof data -/

/-- The arrays as the call finds them; after the body at point `t` each input buffer at its block and the output
    buffer at `out0_3` of the three blocks; the invariant the scoped buffers the call does not stage and the
    generator register, untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.Kernel.Frm

end
-- ==== Proof.K.Region1Data.lean ====
/-
  The aggregation call (the second pallas_call), on one core, at the buffer contents `V` the call is entered
  from. The grid is 16 × 8, walked row-major: point `t = 8·i + k` is handed block (i, k) of A_hat (1024 × 2048)
  and block k of H (2048 × 256). A scratch block of 1024 × 256 is carried from point to point: it is zeroed when
  k = 0, every point adds the product of its two blocks to it, and when k = 7 it is copied into the output block,
  which the pipeline writes back to rows 1024·i … of the result only there. Stated for any float instance.
-/
import proofs.«102156_j26663156974292_1_alg».proof.Proof.Gen.Kernel.Launch
import proofs.«102156_j26663156974292_1_alg».proof.Proof.Gen.Kernel.Skeleton
import proofs.«102156_j26663156974292_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks a point is handed -/

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The two conditions of the body, decided over the grid -/

/-- `k == 0`, as the body computes it. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- `k == 7`, as the body computes it. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-- The input windows are never idle; the output window is idle, and not written back, exactly where k ≠ 7. -/
theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-! ## The staging buffers at a point, and the scratch -/

abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x256 .f32 := win1_2.stage (cfg1.slots t 2)
abbrev hs1_2 (t : Fin cfg1.N) : (ms1_2 t).IsWhole := hstage1_2 ((cfg1.slots t 2).cast nbuf1_2)
/-- The scratch accumulator. -/
abbrev scM1 : Memref sig .tc .vmem S1024x256 .f32 := Memref.whole cc1_scratch0

/-- The scoped buffers this call does not stage, but for the scratch: the projection call's six staging buffers. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f))

/-- What the call is handed beside its windows: those six buffers, the scratch at anything, the generator register. -/
theorem PhiA1_split (c : Dev nD) :
    (Pipeline.ΦA spec1 c : sProp 𝕄) ⊢ iprop(rest1 c ∗ (∃ d, owns (c : Thread nD τ) scM1 fullShare d) ∗ (∃ r, prngReg c r)) := by
  unfold Pipeline.ΦA rest1; rw [scopedRest1_eq]; simp only [scM1, owns_whole]
  iintro ⟨⟨H0, H1, H2, H3, H4, H5, HS⟩, Hg⟩
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [HS]; · iexact HS
  iexact Hg
theorem PhiA1_join (c : Dev nD) :
    iprop(rest1 c ∗ (∃ d, owns (c : Thread nD τ) scM1 fullShare d) ∗ (∃ r, prngReg c r)) ⊢ (Pipeline.ΦA spec1 c : sProp 𝕄) := by
  unfold Pipeline.ΦA rest1; rw [scopedRest1_eq]; simp only [scM1, owns_whole]
  iintro ⟨⟨H0, H1, H2, H3, H4, H5⟩, HS, Hg⟩
  isplitr [Hg]
  · isplitl [H0]; · iexact H0
    isplitl [H1]; · iexact H1
    isplitl [H2]; · iexact H2
    isplitl [H3]; · iexact H3
    isplitl [H4]; · iexact H4
    isplitl [H5]; · iexact H5
    iexact HS
  iexact Hg

/-! ## What the scratch holds after each point -/

/-- THE ACCUMULATION: the scratch after the body at position `n`. A point with k = 0 starts from the zero block,
    any other from what the point before left; each adds the product of its two blocks. -/
def accAt (c : Dev nD) : (n : ℕ) → n < cfg1.N → Vec F S1024x256 .f32
  | 0, hn => k1_pay2 (iblk1 V c 0 ⟨0, hn⟩) (iblk1 V c 1 ⟨0, hn⟩) (k1_pay1 (F := F))
  | n + 1, hn =>
    if (n + 1) % 8 = 0 then k1_pay2 (iblk1 V c 0 ⟨n + 1, hn⟩) (iblk1 V c 1 ⟨n + 1, hn⟩) (k1_pay1 (F := F))
    else k1_pay2 (iblk1 V c 0 ⟨n + 1, hn⟩) (iblk1 V c 1 ⟨n + 1, hn⟩) (accAt c n (Nat.lt_of_succ_lt hn))

theorem accAt_reset (c : Dev nD) (t : Fin cfg1.N) (h0 : t.val % 8 = 0) :
    accAt V c t.val t.isLt = k1_pay2 (iblk1 V c 0 t) (iblk1 V c 1 t) (k1_pay1 (F := F)) := by
  obtain ⟨n, hn⟩ := t
  cases n with
  | zero => rfl
  | succ n => exact if_pos h0

theorem accAt_step (c : Dev nD) (t : Fin cfg1.N) (h0 : ¬t.val % 8 = 0) :
    accAt V c t.val t.isLt = k1_pay2 (iblk1 V c 0 t) (iblk1 V c 1 t) (accAt V c (t.val - 1) (Nat.lt_of_le_of_lt (Nat.sub_le _ _) t.isLt)) := by
  obtain ⟨n, hn⟩ := t
  cases n with
  | zero => exact absurd (Nat.zero_mod _) h0
  | succ n => exact if_neg h0

/-- The invariant before position `n`: before the first point what the call was handed; afterwards the same with
    the scratch at what the point before left in it. -/
def PhiS (c : Dev nD) : (n : ℕ) → n ≤ cfg1.N → sProp 𝕄
  | 0, _ => Pipeline.ΦA spec1 c
  | n + 1, hn => iprop(rest1 c ∗ owns (c : Thread nD τ) scM1 fullShare (accAt V c n hn) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(rest1 c ∗ owns (c : Thread nD τ) scM1 fullShare (accAt V c n hn) ∗ (∃ r, prngReg c r)) := rfl
theorem PhiS_pos (c : Dev nD) (n : ℕ) (h : n ≤ cfg1.N) (hz : n ≠ 0) :
    PhiS V c n h = iprop(rest1 c ∗ owns (c : Thread nD τ) scM1 fullShare (accAt V c (n - 1) (by omega)) ∗ (∃ r, prngReg c r)) := by
  cases n with
  | zero => exact absurd rfl hz
  | succ n => rfl

/-! ## The call's proof data -/

/-- The arrays as the call finds them; after the body at point `t` each input buffer at its block and the output
    buffer at the accumulation (it is stored, and written back, only where k = 7); the invariant `PhiS`;
    nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => accAt V c t.val t.isLt
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = accAt V c t.val t.isLt := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

end Cert.Kernel.Frm

end
-- ==== Proof.K.Region1.lean ====
/-
  The aggregation call's body, run in each of the three cases its two conditions (k = 0, k = 7) leave on the
  8-wide grid axis, and the body obligation of the call's proof data at every point.
-/
import proofs.«102156_j26663156974292_1_alg».proof.Proof.K.Region1Data
import Idealize.ShloMosaic.Lib.Pipeline.Value

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev rS1 : Rect S1024x256 := Rect.unit (s := S1024x256) ![0, 0] S1024x256.size inb_S1024x256_S1024x256_0_0
theorem hz1 : (![0, 0] : Fin 2 → Nat) = fun _ => 0 := by funext a; fin_cases a <;> rfl

set_option maxHeartbeats 4000000 in
/-- k = 0: the scratch is zeroed, then the product of the two blocks is added to it; the output block is not touched. -/
theorem sound_kernel1_A (c : Dev nD) (E : Set ℕ) (i : grid1.Coords)
    (arg2 : Memref sig .tc .vmem S1024x2048 .f32) (harg2 : arg2.IsWhole) (arg3 : Memref sig .tc .vmem S2048x256 .f32) (harg3 : arg3.IsWhole)
    (arg4 : Memref sig .tc .vmem S1024x256 .f32) (harg4 : arg4.IsWhole) (arg5 : Memref sig .tc .vmem S1024x256 .f32) (harg5 : arg5.IsWhole)
    (hc0 : cond1_0 i) (hc1 : ¬cond1_1 i)
    (x0 : Vec F S1024x2048 .f32) (x1 : Vec F S2048x256 .f32) (xi : Vec F S1024x256 .f32) (xs : Vec F S1024x256 .f32) (K : PUnit → sProp 𝕄) :
    iprop(owns (c : Thread nD τ) arg2 fullShare x0 ∗ owns (c : Thread nD τ) arg3 fullShare x1 ∗ owns (c : Thread nD τ) arg4 fullShare xi
        ∗ owns (c : Thread nD τ) arg5 fullShare xs
        ∗ (iprop(owns (c : Thread nD τ) arg2 fullShare x0 ∗ owns (c : Thread nD τ) arg3 fullShare x1
            ∗ owns (c : Thread nD τ) arg4 fullShare (xi)
            ∗ owns (c : Thread nD τ) arg5 fullShare (k1_pay2 x0 x1 (k1_pay1 (F := F)))) -∗ K ⟨⟩))
      ⊢ wp frame (wpE (defs₀ (F := F)) Variants.none c none) E (cc1__spmm_kernel i arg2 harg2 arg3 harg3 arg4 harg4 arg5 harg5) K := by
  simp only [cc1__spmm_kernel_eq_skeleton]; unfold cc1__spmm_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    exact harg4.read_unread _
  iexists _; isplitr
  swap; · iexact HS
  ipureintro
  sl_unfold_words
  rw [View.read_writes_eq_canon _ _ _ (fun y => ⟨_, List.mem_cons.mpr (Or.inl rfl), View.mem_set_unit_zero hz1 inb_S1024x256_S1024x256_0_0 y⟩)]
  rw [View.canon_cons_unit_zero hz1]
  simp only [View.readAt_eq_ld, harg2.read_unread, harg3.read_unread, harg4.read_unread, harg5.read_unread,
    View.readCov_unit_zero (S := S1024x256) _ hz1,
    View.ld_unit_zero (S := S1024x2048) hz1, View.ld_unit_zero (S := S2048x256) hz1, View.ld_unit_zero (S := S1024x256) hz1]

set_option maxHeartbeats 4000000 in
/-- 0 < k < 7: the product of the two blocks is added to what the scratch held; the output block is not touched. -/
theorem sound_kernel1_B (c : Dev nD) (E : Set ℕ) (i : grid1.Coords)
    (arg2 : Memref sig .tc .vmem S1024x2048 .f32) (harg2 : arg2.IsWhole) (arg3 : Memref sig .tc .vmem S2048x256 .f32) (harg3 : arg3.IsWhole)
    (arg4 : Memref sig .tc .vmem S1024x256 .f32) (harg4 : arg4.IsWhole) (arg5 : Memref sig .tc .vmem S1024x256 .f32) (harg5 : arg5.IsWhole)
    (hc0 : ¬cond1_0 i) (hc1 : ¬cond1_1 i)
    (x0 : Vec F S1024x2048 .f32) (x1 : Vec F S2048x256 .f32) (xi : Vec F S1024x256 .f32) (xs : Vec F S1024x256 .f32) (K : PUnit → sProp 𝕄) :
    iprop(owns (c : Thread nD τ) arg2 fullShare x0 ∗ owns (c : Thread nD τ) arg3 fullShare x1 ∗ owns (c : Thread nD τ) arg4 fullShare xi
        ∗ owns (c : Thread nD τ) arg5 fullShare xs
        ∗ (iprop(owns (c : Thread nD τ) arg2 fullShare x0 ∗ owns (c : Thread nD τ) arg3 fullShare x1
            ∗ owns (c : Thread nD τ) arg4 fullShare (xi)
            ∗ owns (c : Thread nD τ) arg5 fullShare (k1_pay2 x0 x1 xs)) -∗ K ⟨⟩))
      ⊢ wp frame (wpE (defs₀ (F := F)) Variants.none c none) E (cc1__spmm_kernel i arg2 harg2 arg3 harg3 arg4 harg4 arg5 harg5) K := by
  simp only [cc1__spmm_kernel_eq_skeleton]; unfold cc1__spmm_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    exact harg4.read_unread _
  iexists _; isplitr
  swap; · iexact HS
  ipureintro
  sl_unfold_words
  rw [View.read_writes_eq_canon _ _ _ (fun y => ⟨_, List.mem_cons.mpr (Or.inl rfl), View.mem_set_unit_zero hz1 inb_S1024x256_S1024x256_0_0 y⟩)]
  rw [View.canon_cons_unit_zero hz1]
  simp only [View.readAt_eq_ld, harg2.read_unread, harg3.read_unread, harg4.read_unread, harg5.read_unread,
    View.readCov_unit_zero (S := S1024x256) _ hz1,
    View.ld_unit_zero (S := S1024x2048) hz1, View.ld_unit_zero (S := S2048x256) hz1, View.ld_unit_zero (S := S1024x256) hz1]

set_option maxHeartbeats 4000000 in
/-- k = 7: the product is added to what the scratch held, and the sum is copied into the output block. -/
theorem sound_kernel1_C (c : Dev nD) (E : Set ℕ) (i : grid1.Coords)
    (arg2 : Memref sig .tc .vmem S1024x2048 .f32) (harg2 : arg2.IsWhole) (arg3 : Memref sig .tc .vmem S2048x256 .f32) (harg3 : arg3.IsWhole)
    (arg4 : Memref sig .tc .vmem S1024x256 .f32) (harg4 : arg4.IsWhole) (arg5 : Memref sig .tc .vmem S1024x256 .f32) (harg5 : arg5.IsWhole)
    (hc0 : ¬cond1_0 i) (hc1 : cond1_1 i)
    (x0 : Vec F S1024x2048 .f32) (x1 : Vec F S2048x256 .f32) (xi : Vec F S1024x256 .f32) (xs : Vec F S1024x256 .f32) (K : PUnit → sProp 𝕄) :
    iprop(owns (c : Thread nD τ) arg2 fullShare x0 ∗ owns (c : Thread nD τ) arg3 fullShare x1 ∗ owns (c : Thread nD τ) arg4 fullShare xi
        ∗ owns (c : Thread nD τ) arg5 fullShare xs
        ∗ (iprop(owns (c : Thread nD τ) arg2 fullShare x0 ∗ owns (c : Thread nD τ) arg3 fullShare x1
            ∗ owns (c : Thread nD τ) arg4 fullShare (k1_pay2 x0 x1 xs)
            ∗ owns (c : Thread nD τ) arg5 fullShare (k1_pay2 x0 x1 xs)) -∗ K ⟨⟩))
      ⊢ wp frame (wpE (defs₀ (F := F)) Variants.none c none) E (cc1__spmm_kernel i arg2 harg2 arg3 harg3 arg4 harg4 arg5 harg5) K := by
  simp only [cc1__spmm_kernel_eq_skeleton]; unfold cc1__spmm_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_words
    rw [View.read_writes_eq_canon _ _ _ (fun y => ⟨_, List.mem_cons.mpr (Or.inl rfl), View.mem_set_unit_zero hz1 inb_S1024x256_S1024x256_0_0 y⟩)]
    rw [View.canon_cons_unit_zero hz1]
    simp only [View.readAt_eq_ld, harg2.read_unread, harg3.read_unread, harg4.read_unread, harg5.read_unread,
      View.readCov_unit_zero (S := S1024x256) _ hz1,
      View.ld_unit_zero (S := S1024x2048) hz1, View.ld_unit_zero (S := S2048x256) hz1, View.ld_unit_zero (S := S1024x256) hz1]
  iexists _; isplitr
  swap; · iexact HS
  ipureintro
  sl_unfold_words
  rw [View.read_writes_eq_canon _ _ _ (fun y => ⟨_, List.mem_cons.mpr (Or.inl rfl), View.mem_set_unit_zero hz1 inb_S1024x256_S1024x256_0_0 y⟩)]
  rw [View.canon_cons_unit_zero hz1]
  simp only [View.readAt_eq_ld, harg2.read_unread, harg3.read_unread, harg4.read_unread, harg5.read_unread,
    View.readCov_unit_zero (S := S1024x256) _ hz1,
    View.ld_unit_zero (S := S1024x2048) hz1, View.ld_unit_zero (S := S2048x256) hz1, View.ld_unit_zero (S := S1024x256) hz1]

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the residue of the point modulo 8 says which case it is in; the invariant hands the body
    the scratch at what the point before left (at anything at the very first point) and takes it back at this
    point's accumulation; where k ≠ 7 the output block is handed back untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  have hN : t.val < 128 := lt_of_lt_of_eq t.isLt (show cfg1.N = 128 from N_1)
  by_cases h0 : t.val % 8 = 0
  · have hc0 : cond1_0 (grid1.coords t) := (hcond1_0 t).mpr h0
    have hc1 : ¬cond1_1 (grid1.coords t) := fun h => by have := (hcond1_1 t).mp h; omega
    rw [Dat.leavesExact_idle (dat1 V c) 2 t (idleAt1_2 t hc1) (noFlush1_2 t hc1)]
    rw [accAt_reset V c t h0]
    by_cases hz : t.val = 0
    · rw [PhiS_castSucc V c t, PhiS_zero V c _ _ hz]
      have hsp := PhiA1_split (F := F) c
      iintro ⟨HP, Ho, ⟨%d0, H0⟩, ⟨%d1, H1⟩, ⟨%d2, H2⟩⟩
      ihave HQ := hsp $$ HP
      icases HQ with ⟨Hr, ⟨%ds, HS⟩, Hg⟩
      iapply (sound_kernel1_A c Set.univ (grid1.coords t) _ _ _ _ _ _ _ _ hc0 hc1 (iblk1 V c 0 t) (iblk1 V c 1 t) _ ds _)
      isplitl [H0]; · iexact H0
      isplitl [H1]; · iexact H1
      isplitl [H2]; · iexact H2
      isplitl [HS]; · iexact HS
      iintro ⟨H0, H1, H2, HS⟩
      isplitl [Hr HS Hg]
      · isplitl [Hr]; · iexact Hr
        isplitl [HS]; · iexact HS
        iexact Hg
      isplitl [Ho]; · iexact Ho
      isplitl [H0]; · iexact H0
      isplitl [H1]; · iexact H1
      iexists _; iexact H2
    · rw [PhiS_castSucc V c t, PhiS_pos V c _ _ hz]
      iintro ⟨⟨Hr, HS, Hg⟩, Ho, ⟨%d0, H0⟩, ⟨%d1, H1⟩, ⟨%d2, H2⟩⟩
      iapply (sound_kernel1_A c Set.univ (grid1.coords t) _ _ _ _ _ _ _ _ hc0 hc1 (iblk1 V c 0 t) (iblk1 V c 1 t) _ _ _)
      isplitl [H0]; · iexact H0
      isplitl [H1]; · iexact H1
      isplitl [H2]; · iexact H2
      isplitl [HS]; · iexact HS
      iintro ⟨H0, H1, H2, HS⟩
      isplitl [Hr HS Hg]
      · isplitl [Hr]; · iexact Hr
        isplitl [HS]; · iexact HS
        iexact Hg
      isplitl [Ho]; · iexact Ho
      isplitl [H0]; · iexact H0
      isplitl [H1]; · iexact H1
      iexists _; iexact H2
  · have hc0 : ¬cond1_0 (grid1.coords t) := fun h => h0 ((hcond1_0 t).mp h)
    have hz : t.val ≠ 0 := fun e => h0 (by rw [e])
    by_cases h7 : t.val % 8 = 7
    · have hc1 : cond1_1 (grid1.coords t) := (hcond1_1 t).mpr h7
      rw [show (dat1 V c).leavesExact 2 t = owns (c : Thread nD τ) (ms1_2 t) fullShare ((dat1 V c).after 2 t) from by
        unfold Dat.leavesExact; rw [liveAt1_2 t hc1], after1_2]
      rw [accAt_step V c t h0]
      rw [PhiS_castSucc V c t, PhiS_pos V c _ _ hz]
      iintro ⟨⟨Hr, HS, Hg⟩, Ho, ⟨%d0, H0⟩, ⟨%d1, H1⟩, ⟨%d2, H2⟩⟩
      iapply (sound_kernel1_C c Set.univ (grid1.coords t) _ _ _ _ _ _ _ _ hc0 hc1 (iblk1 V c 0 t) (iblk1 V c 1 t) _ _ _)
      isplitl [H0]; · iexact H0
      isplitl [H1]; · iexact H1
      isplitl [H2]; · iexact H2
      isplitl [HS]; · iexact HS
      iintro ⟨H0, H1, H2, HS⟩
      isplitl [Hr HS Hg]
      · isplitl [Hr]; · iexact Hr
        isplitl [HS]; · iexact HS
        iexact Hg
      isplitl [Ho]; · iexact Ho
      isplitl [H0]; · iexact H0
      isplitl [H1]; · iexact H1
      iexact H2
    · have hc1 : ¬cond1_1 (grid1.coords t) := fun h => h7 ((hcond1_1 t).mp h)
      rw [Dat.leavesExact_idle (dat1 V c) 2 t (idleAt1_2 t hc1) (noFlush1_2 t hc1)]
      rw [accAt_step V c t h0]
      rw [PhiS_castSucc V c t, PhiS_pos V c _ _ hz]
      iintro ⟨⟨Hr, HS, Hg⟩, Ho, ⟨%d0, H0⟩, ⟨%d1, H1⟩, ⟨%d2, H2⟩⟩
      iapply (sound_kernel1_B c Set.univ (grid1.coords t) _ _ _ _ _ _ _ _ hc0 hc1 (iblk1 V c 0 t) (iblk1 V c 1 t) _ _ _)
      isplitl [H0]; · iexact H0
      isplitl [H1]; · iexact H1
      isplitl [H2]; · iexact H2
      isplitl [HS]; · iexact HS
      iintro ⟨H0, H1, H2, HS⟩
      isplitl [Hr HS Hg]
      · isplitl [Hr]; · iexact Hr
        isplitl [HS]; · iexact HS
        iexact Hg
      isplitl [Ho]; · iexact Ho
      isplitl [H0]; · iexact H0
      isplitl [H1]; · iexact H1
      iexists _; iexact H2

theorem body_obligation1 (c : Dev nD) : BodyObligation (dat1 (F := F) V c) (defs₀ (F := F)) Variants.none () Set.univ := fun t => by
  rw [bigSep_W1, bigSep_W1]
  exact sound_body1 V c t

/-- After the last point the invariant gives back what the call was handed: the scratch's contents are forgotten. -/
theorem Phi_out1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 128 := N_1; omega)]
  refine .trans ?_ (PhiA1_join c)
  iintro ⟨Hr, HS, Hg⟩
  isplitl [Hr]; · iexact Hr
  isplitl [HS]; · iexists _; iexact HS
  iexact Hg

end Cert.Kernel.Frm

end
-- ==== Proof.K.Run.lean ====
/-
  The whole run of @main: the projection call, then the aggregation call, from any launch memory. Between the
  calls every unscoped buffer is held at named contents: at launch the memory `m`; after the first call the same
  but for H, which holds what the eight write-backs left; after the second the same again but for the result,
  which holds what the sixteen write-backs left. Every weakly fair execution terminates, and the final memory is
  the last of these valuations — so each argument ends as launched, and the result ends at the second call's
  written-back array. Stated for any float instance.
-/
import proofs.«102156_j26663156974292_1_alg».proof.Proof.K.Region0
import proofs.«102156_j26663156974292_1_alg».proof.Proof.K.Region1

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at the three boundaries -/

/-- At launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the projection call: its arrays at what its write-backs leave, every other buffer as before. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the aggregation call. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-! ### The arguments end as launched: each is an input of one call and bypasses the other -/

theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := W2_of_ne m ρ c main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := (W1_arr m ρ c 1).trans (((dat0 (V0 m ρ) c).arrAt_in 1 rfl _).trans (A_eq0 (V0 m ρ) c 1))
    _ = m ((c : Thread nD τ).loc main_arg2) := rfl
theorem W2_main_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := (W1_arr m ρ c 2).trans (((dat0 (V0 m ρ) c).arrAt_in 2 rfl _).trans (A_eq0 (V0 m ρ) c 2))
    _ = m ((c : Thread nD τ).loc main_arg3) := rfl
theorem W1_main_arg1 (c : Dev nD) : W1 m ρ c (Proc.devRef .tc main_arg1) = m ((c : Thread nD τ).loc main_arg1) :=
  (W1_of_ne m ρ c main_arg1 (by decide)).trans rfl
theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := (W2_arr m ρ c 0).trans (((dat1 (V1 m ρ) c).arrAt_in 0 rfl _).trans (A_eq1 (V1 m ρ) c 0))
    _ = m ((c : Thread nD τ).loc main_arg1) := W1_main_arg1 m ρ c
/-- H, as the second call finds it, is what the first call's write-backs left. -/
theorem V1_main_v0 (c : Dev nD) : V1 m ρ c main_v0 = (dat0 (V0 m ρ) c).arrAt 3 cfg0.N := W1_arr m ρ c 3
/-- The result at the end is what the second call's write-backs left. -/
theorem W2_main_v1 (c : Dev nD) : W2 m ρ c (Proc.devRef .tc main_v1) = (dat1 (V1 m ρ) c).arrAt 2 cfg1.N := W2_arr m ρ c 2

/-! ## The proof data family and the thread state -/

abbrev adm : (p : Fin 2) → (pcfgs (F := F) p).Adm := fun p => (cfgs p).toPCfg_adm
/-- Each call's proof data at its entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m ρ c) ∗ ∃ r, prngReg c r)

/-! ## The two calls as segments: each is entered with every unscoped buffer at one boundary's contents and left
    with them at the next; its arrays are split out of the unscoped buffers at entry and put back at exit; the
    generator register passes through its invariant; nothing is owed and the kernels have no semaphore of their own.
    The aggregation call's invariant ends with the scratch at the last accumulation, which is forgotten. -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    have hΦ : (pdats m ρ 1 c).Φ (Fin.last _) ⊢ (Pipeline.ΦA spec1 c : sProp 𝕄) := Phi_out1 (V1 m ρ) c
    refine hΦ.trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as the two segments, and the launch -/

abbrev segs : List (Pipeline.Seg (pcfgs (F := F)) adm (pdats m ρ) () defs₀ 𝒱₀ L lv) :=
  [ .region (reg0 m ρ), .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and in the final memory every unscoped buffer holds the last valuation `W2`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W2_main_arg0 m ρ c),
     (h c _ (mem_uc main_arg1 (by decide))).trans (W2_main_arg1 m ρ c),
     (h c _ (mem_uc main_arg2 (by decide))).trans (W2_main_arg2 m ρ c),
     (h c _ (mem_uc main_arg3 (by decide))).trans (W2_main_arg3 m ρ c)⟩) (run_all m ρ)

/-- The run with the result named: it ends at what the aggregation call's write-backs leave, the arguments as launched. -/
theorem run_value : θ_run defs (onTc (τ := τ) (main (F := F))) ⟨m, fun _ => 0, ρ⟩ (fun r => ∀ c : Dev nD,
      r.2.mem ((c.tc : Thread nD τ).loc main_v1) = (dat1 (V1 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v1 (by decide))).trans (W2_main_v1 m ρ c),
     (h c _ (mem_uc main_arg0 (by decide))).trans (W2_main_arg0 m ρ c),
     (h c _ (mem_uc main_arg1 (by decide))).trans (W2_main_arg1 m ρ c),
     (h c _ (mem_uc main_arg2 (by decide))).trans (W2_main_arg2 m ρ c),
     (h c _ (mem_uc main_arg3 (by decide))).trans (W2_main_arg3 m ρ c)⟩) (run_all m ρ)

end Cert.Kernel.Frm

end
-- ==== Proof.KI.Region0.lean ====
/-
  The projection call (the first of the two pallas_calls), on one core, at the buffer contents `V` the call is
  entered from. Eight grid points; point `t` is handed rows 2048·t … 2048·t + 2047 of X, all of W and all of b,
  and leaves in its output block the product of the X rows with W plus b broadcast along the rows. Nothing is
  kept between points. Stated for any float instance.
-/
import proofs.«102156_j26663156974292_1_alg».proof.Proof.Gen.KernelIdeal.Launch
import proofs.«102156_j26663156974292_1_alg».proof.Proof.Gen.KernelIdeal.Skeleton
import proofs.«102156_j26663156974292_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks a point is handed -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the point fetches it or not
    (W and b are fetched once, their block index never moves). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store take the whole buffer -/

abbrev rX0 : Rect S2048x512 := Rect.unit (s := S2048x512) ![0, 0] S2048x512.size inb_S2048x512_S2048x512_0_0
abbrev rW0 : Rect S512x256 := Rect.unit (s := S512x256) ![0, 0] S512x256.size inb_S512x256_S512x256_0_0
abbrev rB0 : Rect S256 := Rect.unit (s := S256) ![0] S256.size inb_S256_S256_0
abbrev rO0 : Rect S2048x256 := Rect.unit (s := S2048x256) ![0, 0] S2048x256.size inb_S2048x256_S2048x256_0_0

/-- What the body leaves in the output block, from the three input blocks: its one store. -/
def out0_3 (x0 : Vec F S2048x512 .f32) (x1 : Vec F S512x256 .f32) (x2 : Vec F S256 .f32) : Vec F S2048x256 .f32 :=
  View.canon [⟨rO0, k0_pay1 (View.ld x0 rX0) (View.ld x1 rW0) (View.ld x2 rB0)⟩]

/-- The store's rectangle is the whole block. -/
theorem cover0_3 (p0 : Vec F S2048x256 .f32) (y : S2048x256.Idx) :
    ∃ pc ∈ ([⟨rO0, p0⟩] : List (View.Piece (Elt F) S2048x256 .f32)), y ∈ pc.1.set :=
  View.cover_of_tiled [⟨rO0, p0⟩] S2048x256.size (by rfl) y

/-! ## The body's triple -/

set_option maxHeartbeats 1000000 in
/-- On whole staging buffers, the inputs' at `x0 x1 x2` and the output's at anything, the body runs and hands
    back the inputs as they were and the output at `out0_3 x0 x1 x2`. -/
theorem sound_kernel0 (c : Dev nD) (E : Set ℕ) (i : grid0.Coords)
    (arg1 : Memref sig .tc .vmem S2048x512 .f32) (harg1 : arg1.IsWhole) (arg2 : Memref sig .tc .vmem S512x256 .f32) (harg2 : arg2.IsWhole)
    (arg3 : Memref sig .tc .vmem S256 .f32) (harg3 : arg3.IsWhole) (arg4 : Memref sig .tc .vmem S2048x256 .f32) (harg4 : arg4.IsWhole)
    (x0 : Vec F S2048x512 .f32) (x1 : Vec F S512x256 .f32) (x2 : Vec F S256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The call's proof data -/

/-- The arrays as the call finds them; after the body at point `t` each input buffer at its block and the output
    buffer at `out0_3` of the three blocks; the invariant the scoped buffers the call does not stage and the
    generator register, untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.KernelIdeal.Frm

end
-- ==== Proof.KI.Region1Data.lean ====
/-
  The aggregation call (the second pallas_call), on one core, at the buffer contents `V` the call is entered
  from. The grid is 16 × 8, walked row-major: point `t = 8·i + k` is handed block (i, k) of A_hat (1024 × 2048)
  and block k of H (2048 × 256). A scratch block of 1024 × 256 is carried from point to point: it is zeroed when
  k = 0, every point adds the product of its two blocks to it, and when k = 7 it is copied into the output block,
  which the pipeline writes back to rows 1024·i … of the result only there. Stated for any float instance.
-/
import proofs.«102156_j26663156974292_1_alg».proof.Proof.Gen.KernelIdeal.Launch
import proofs.«102156_j26663156974292_1_alg».proof.Proof.Gen.KernelIdeal.Skeleton
import proofs.«102156_j26663156974292_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks a point is handed -/

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The two conditions of the body, decided over the grid -/

/-- `k == 0`, as the body computes it. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- `k == 7`, as the body computes it. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-- The input windows are never idle; the output window is idle, and not written back, exactly where k ≠ 7. -/
theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-! ## The staging buffers at a point, and the scratch -/

abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x256 .f32 := win1_2.stage (cfg1.slots t 2)
abbrev hs1_2 (t : Fin cfg1.N) : (ms1_2 t).IsWhole := hstage1_2 ((cfg1.slots t 2).cast nbuf1_2)
/-- The scratch accumulator. -/
abbrev scM1 : Memref sig .tc .vmem S1024x256 .f32 := Memref.whole cc1_scratch0

/-- The scoped buffers this call does not stage, but for the scratch: the projection call's six staging buffers. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f))

/-- What the call is handed beside its windows: those six buffers, the scratch at anything, the generator register. -/
theorem PhiA1_split (c : Dev nD) :
    (Pipeline.ΦA spec1 c : sProp 𝕄) ⊢ iprop(rest1 c ∗ (∃ d, owns (c : Thread nD τ) scM1 fullShare d) ∗ (∃ r, prngReg c r)) := by
  unfold Pipeline.ΦA rest1; rw [scopedRest1_eq]; simp only [scM1, owns_whole]
  iintro ⟨⟨H0, H1, H2, H3, H4, H5, HS⟩, Hg⟩
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [HS]; · iexact HS
  iexact Hg
theorem PhiA1_join (c : Dev nD) :
    iprop(rest1 c ∗ (∃ d, owns (c : Thread nD τ) scM1 fullShare d) ∗ (∃ r, prngReg c r)) ⊢ (Pipeline.ΦA spec1 c : sProp 𝕄) := by
  unfold Pipeline.ΦA rest1; rw [scopedRest1_eq]; simp only [scM1, owns_whole]
  iintro ⟨⟨H0, H1, H2, H3, H4, H5⟩, HS, Hg⟩
  isplitr [Hg]
  · isplitl [H0]; · iexact H0
    isplitl [H1]; · iexact H1
    isplitl [H2]; · iexact H2
    isplitl [H3]; · iexact H3
    isplitl [H4]; · iexact H4
    isplitl [H5]; · iexact H5
    iexact HS
  iexact Hg

/-! ## What the scratch holds after each point -/

/-- THE ACCUMULATION: the scratch after the body at position `n`. A point with k = 0 starts from the zero block,
    any other from what the point before left; each adds the product of its two blocks. -/
def accAt (c : Dev nD) : (n : ℕ) → n < cfg1.N → Vec F S1024x256 .f32
  | 0, hn => k1_pay2 (iblk1 V c 0 ⟨0, hn⟩) (iblk1 V c 1 ⟨0, hn⟩) (k1_pay1 (F := F))
  | n + 1, hn =>
    if (n + 1) % 8 = 0 then k1_pay2 (iblk1 V c 0 ⟨n + 1, hn⟩) (iblk1 V c 1 ⟨n + 1, hn⟩) (k1_pay1 (F := F))
    else k1_pay2 (iblk1 V c 0 ⟨n + 1, hn⟩) (iblk1 V c 1 ⟨n + 1, hn⟩) (accAt c n (Nat.lt_of_succ_lt hn))

theorem accAt_reset (c : Dev nD) (t : Fin cfg1.N) (h0 : t.val % 8 = 0) :
    accAt V c t.val t.isLt = k1_pay2 (iblk1 V c 0 t) (iblk1 V c 1 t) (k1_pay1 (F := F)) := by
  obtain ⟨n, hn⟩ := t
  cases n with
  | zero => rfl
  | succ n => exact if_pos h0

theorem accAt_step (c : Dev nD) (t : Fin cfg1.N) (h0 : ¬t.val % 8 = 0) :
    accAt V c t.val t.isLt = k1_pay2 (iblk1 V c 0 t) (iblk1 V c 1 t) (accAt V c (t.val - 1) (Nat.lt_of_le_of_lt (Nat.sub_le _ _) t.isLt)) := by
  obtain ⟨n, hn⟩ := t
  cases n with
  | zero => exact absurd (Nat.zero_mod _) h0
  | succ n => exact if_neg h0

/-- The invariant before position `n`: before the first point what the call was handed; afterwards the same with
    the scratch at what the point before left in it. -/
def PhiS (c : Dev nD) : (n : ℕ) → n ≤ cfg1.N → sProp 𝕄
  | 0, _ => Pipeline.ΦA spec1 c
  | n + 1, hn => iprop(rest1 c ∗ owns (c : Thread nD τ) scM1 fullShare (accAt V c n hn) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(rest1 c ∗ owns (c : Thread nD τ) scM1 fullShare (accAt V c n hn) ∗ (∃ r, prngReg c r)) := rfl
theorem PhiS_pos (c : Dev nD) (n : ℕ) (h : n ≤ cfg1.N) (hz : n ≠ 0) :
    PhiS V c n h = iprop(rest1 c ∗ owns (c : Thread nD τ) scM1 fullShare (accAt V c (n - 1) (by omega)) ∗ (∃ r, prngReg c r)) := by
  cases n with
  | zero => exact absurd rfl hz
  | succ n => rfl

/-! ## The call's proof data -/

/-- The arrays as the call finds them; after the body at point `t` each input buffer at its block and the output
    buffer at the accumulation (it is stored, and written back, only where k = 7); the invariant `PhiS`;
    nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => accAt V c t.val t.isLt
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = accAt V c t.val t.isLt := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

end Cert.KernelIdeal.Frm

end
-- ==== Proof.KI.Region1.lean ====
/-
  The aggregation call's body, run in each of the three cases its two conditions (k = 0, k = 7) leave on the
  8-wide grid axis, and the body obligation of the call's proof data at every point.
-/
import proofs.«102156_j26663156974292_1_alg».proof.Proof.KI.Region1Data
import Idealize.ShloMosaic.Lib.Pipeline.Value

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev rS1 : Rect S1024x256 := Rect.unit (s := S1024x256) ![0, 0] S1024x256.size inb_S1024x256_S1024x256_0_0
theorem hz1 : (![0, 0] : Fin 2 → Nat) = fun _ => 0 := by funext a; fin_cases a <;> rfl

set_option maxHeartbeats 4000000 in
/-- k = 0: the scratch is zeroed, then the product of the two blocks is added to it; the output block is not touched. -/
theorem sound_kernel1_A (c : Dev nD) (E : Set ℕ) (i : grid1.Coords)
    (arg2 : Memref sig .tc .vmem S1024x2048 .f32) (harg2 : arg2.IsWhole) (arg3 : Memref sig .tc .vmem S2048x256 .f32) (harg3 : arg3.IsWhole)
    (arg4 : Memref sig .tc .vmem S1024x256 .f32) (harg4 : arg4.IsWhole) (arg5 : Memref sig .tc .vmem S1024x256 .f32) (harg5 : arg5.IsWhole)
    (hc0 : cond1_0 i) (hc1 : ¬cond1_1 i)
    (x0 : Vec F S1024x2048 .f32) (x1 : Vec F S2048x256 .f32) (xi : Vec F S1024x256 .f32) (xs : Vec F S1024x256 .f32) (K : PUnit → sProp 𝕄) :
    iprop(owns (c : Thread nD τ) arg2 fullShare x0 ∗ owns (c : Thread nD τ) arg3 fullShare x1 ∗ owns (c : Thread nD τ) arg4 fullShare xi
        ∗ owns (c : Thread nD τ) arg5 fullShare xs
        ∗ (iprop(owns (c : Thread nD τ) arg2 fullShare x0 ∗ owns (c : Thread nD τ) arg3 fullShare x1
            ∗ owns (c : Thread nD τ) arg4 fullShare (xi)
            ∗ owns (c : Thread nD τ) arg5 fullShare (k1_pay2 x0 x1 (k1_pay1 (F := F)))) -∗ K ⟨⟩))
      ⊢ wp frame (wpE (defs₀ (F := F)) Variants.none c none) E (cc1__spmm_kernel i arg2 harg2 arg3 harg3 arg4 harg4 arg5 harg5) K := by
  simp only [cc1__spmm_kernel_eq_skeleton]; unfold cc1__spmm_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    exact harg4.read_unread _
  iexists _; isplitr
  swap; · iexact HS
  ipureintro
  sl_unfold_words
  rw [View.read_writes_eq_canon _ _ _ (fun y => ⟨_, List.mem_cons.mpr (Or.inl rfl), View.mem_set_unit_zero hz1 inb_S1024x256_S1024x256_0_0 y⟩)]
  rw [View.canon_cons_unit_zero hz1]
  simp only [View.readAt_eq_ld, harg2.read_unread, harg3.read_unread, harg4.read_unread, harg5.read_unread,
    View.readCov_unit_zero (S := S1024x256) _ hz1,
    View.ld_unit_zero (S := S1024x2048) hz1, View.ld_unit_zero (S := S2048x256) hz1, View.ld_unit_zero (S := S1024x256) hz1]

set_option maxHeartbeats 4000000 in
/-- 0 < k < 7: the product of the two blocks is added to what the scratch held; the output block is not touched. -/
theorem sound_kernel1_B (c : Dev nD) (E : Set ℕ) (i : grid1.Coords)
    (arg2 : Memref sig .tc .vmem S1024x2048 .f32) (harg2 : arg2.IsWhole) (arg3 : Memref sig .tc .vmem S2048x256 .f32) (harg3 : arg3.IsWhole)
    (arg4 : Memref sig .tc .vmem S1024x256 .f32) (harg4 : arg4.IsWhole) (arg5 : Memref sig .tc .vmem S1024x256 .f32) (harg5 : arg5.IsWhole)
    (hc0 : ¬cond1_0 i) (hc1 : ¬cond1_1 i)
    (x0 : Vec F S1024x2048 .f32) (x1 : Vec F S2048x256 .f32) (xi : Vec F S1024x256 .f32) (xs : Vec F S1024x256 .f32) (K : PUnit → sProp 𝕄) :
    iprop(owns (c : Thread nD τ) arg2 fullShare x0 ∗ owns (c : Thread nD τ) arg3 fullShare x1 ∗ owns (c : Thread nD τ) arg4 fullShare xi
        ∗ owns (c : Thread nD τ) arg5 fullShare xs
        ∗ (iprop(owns (c : Thread nD τ) arg2 fullShare x0 ∗ owns (c : Thread nD τ) arg3 fullShare x1
            ∗ owns (c : Thread nD τ) arg4 fullShare (xi)
            ∗ owns (c : Thread nD τ) arg5 fullShare (k1_pay2 x0 x1 xs)) -∗ K ⟨⟩))
      ⊢ wp frame (wpE (defs₀ (F := F)) Variants.none c none) E (cc1__spmm_kernel i arg2 harg2 arg3 harg3 arg4 harg4 arg5 harg5) K := by
  simp only [cc1__spmm_kernel_eq_skeleton]; unfold cc1__spmm_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    exact harg4.read_unread _
  iexists _; isplitr
  swap; · iexact HS
  ipureintro
  sl_unfold_words
  rw [View.read_writes_eq_canon _ _ _ (fun y => ⟨_, List.mem_cons.mpr (Or.inl rfl), View.mem_set_unit_zero hz1 inb_S1024x256_S1024x256_0_0 y⟩)]
  rw [View.canon_cons_unit_zero hz1]
  simp only [View.readAt_eq_ld, harg2.read_unread, harg3.read_unread, harg4.read_unread, harg5.read_unread,
    View.readCov_unit_zero (S := S1024x256) _ hz1,
    View.ld_unit_zero (S := S1024x2048) hz1, View.ld_unit_zero (S := S2048x256) hz1, View.ld_unit_zero (S := S1024x256) hz1]

set_option maxHeartbeats 4000000 in
/-- k = 7: the product is added to what the scratch held, and the sum is copied into the output block. -/
theorem sound_kernel1_C (c : Dev nD) (E : Set ℕ) (i : grid1.Coords)
    (arg2 : Memref sig .tc .vmem S1024x2048 .f32) (harg2 : arg2.IsWhole) (arg3 : Memref sig .tc .vmem S2048x256 .f32) (harg3 : arg3.IsWhole)
    (arg4 : Memref sig .tc .vmem S1024x256 .f32) (harg4 : arg4.IsWhole) (arg5 : Memref sig .tc .vmem S1024x256 .f32) (harg5 : arg5.IsWhole)
    (hc0 : ¬cond1_0 i) (hc1 : cond1_1 i)
    (x0 : Vec F S1024x2048 .f32) (x1 : Vec F S2048x256 .f32) (xi : Vec F S1024x256 .f32) (xs : Vec F S1024x256 .f32) (K : PUnit → sProp 𝕄) :
    iprop(owns (c : Thread nD τ) arg2 fullShare x0 ∗ owns (c : Thread nD τ) arg3 fullShare x1 ∗ owns (c : Thread nD τ) arg4 fullShare xi
        ∗ owns (c : Thread nD τ) arg5 fullShare xs
        ∗ (iprop(owns (c : Thread nD τ) arg2 fullShare x0 ∗ owns (c : Thread nD τ) arg3 fullShare x1
            ∗ owns (c : Thread nD τ) arg4 fullShare (k1_pay2 x0 x1 xs)
            ∗ owns (c : Thread nD τ) arg5 fullShare (k1_pay2 x0 x1 xs)) -∗ K ⟨⟩))
      ⊢ wp frame (wpE (defs₀ (F := F)) Variants.none c none) E (cc1__spmm_kernel i arg2 harg2 arg3 harg3 arg4 harg4 arg5 harg5) K := by
  simp only [cc1__spmm_kernel_eq_skeleton]; unfold cc1__spmm_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_words
    rw [View.read_writes_eq_canon _ _ _ (fun y => ⟨_, List.mem_cons.mpr (Or.inl rfl), View.mem_set_unit_zero hz1 inb_S1024x256_S1024x256_0_0 y⟩)]
    rw [View.canon_cons_unit_zero hz1]
    simp only [View.readAt_eq_ld, harg2.read_unread, harg3.read_unread, harg4.read_unread, harg5.read_unread,
      View.readCov_unit_zero (S := S1024x256) _ hz1,
      View.ld_unit_zero (S := S1024x2048) hz1, View.ld_unit_zero (S := S2048x256) hz1, View.ld_unit_zero (S := S1024x256) hz1]
  iexists _; isplitr
  swap; · iexact HS
  ipureintro
  sl_unfold_words
  rw [View.read_writes_eq_canon _ _ _ (fun y => ⟨_, List.mem_cons.mpr (Or.inl rfl), View.mem_set_unit_zero hz1 inb_S1024x256_S1024x256_0_0 y⟩)]
  rw [View.canon_cons_unit_zero hz1]
  simp only [View.readAt_eq_ld, harg2.read_unread, harg3.read_unread, harg4.read_unread, harg5.read_unread,
    View.readCov_unit_zero (S := S1024x256) _ hz1,
    View.ld_unit_zero (S := S1024x2048) hz1, View.ld_unit_zero (S := S2048x256) hz1, View.ld_unit_zero (S := S1024x256) hz1]

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the residue of the point modulo 8 says which case it is in; the invariant hands the body
    the scratch at what the point before left (at anything at the very first point) and takes it back at this
    point's accumulation; where k ≠ 7 the output block is handed back untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  have hN : t.val < 128 := lt_of_lt_of_eq t.isLt (show cfg1.N = 128 from N_1)
  by_cases h0 : t.val % 8 = 0
  · have hc0 : cond1_0 (grid1.coords t) := (hcond1_0 t).mpr h0
    have hc1 : ¬cond1_1 (grid1.coords t) := fun h => by have := (hcond1_1 t).mp h; omega
    rw [Dat.leavesExact_idle (dat1 V c) 2 t (idleAt1_2 t hc1) (noFlush1_2 t hc1)]
    rw [accAt_reset V c t h0]
    by_cases hz : t.val = 0
    · rw [PhiS_castSucc V c t, PhiS_zero V c _ _ hz]
      have hsp := PhiA1_split (F := F) c
      iintro ⟨HP, Ho, ⟨%d0, H0⟩, ⟨%d1, H1⟩, ⟨%d2, H2⟩⟩
      ihave HQ := hsp $$ HP
      icases HQ with ⟨Hr, ⟨%ds, HS⟩, Hg⟩
      iapply (sound_kernel1_A c Set.univ (grid1.coords t) _ _ _ _ _ _ _ _ hc0 hc1 (iblk1 V c 0 t) (iblk1 V c 1 t) _ ds _)
      isplitl [H0]; · iexact H0
      isplitl [H1]; · iexact H1
      isplitl [H2]; · iexact H2
      isplitl [HS]; · iexact HS
      iintro ⟨H0, H1, H2, HS⟩
      isplitl [Hr HS Hg]
      · isplitl [Hr]; · iexact Hr
        isplitl [HS]; · iexact HS
        iexact Hg
      isplitl [Ho]; · iexact Ho
      isplitl [H0]; · iexact H0
      isplitl [H1]; · iexact H1
      iexists _; iexact H2
    · rw [PhiS_castSucc V c t, PhiS_pos V c _ _ hz]
      iintro ⟨⟨Hr, HS, Hg⟩, Ho, ⟨%d0, H0⟩, ⟨%d1, H1⟩, ⟨%d2, H2⟩⟩
      iapply (sound_kernel1_A c Set.univ (grid1.coords t) _ _ _ _ _ _ _ _ hc0 hc1 (iblk1 V c 0 t) (iblk1 V c 1 t) _ _ _)
      isplitl [H0]; · iexact H0
      isplitl [H1]; · iexact H1
      isplitl [H2]; · iexact H2
      isplitl [HS]; · iexact HS
      iintro ⟨H0, H1, H2, HS⟩
      isplitl [Hr HS Hg]
      · isplitl [Hr]; · iexact Hr
        isplitl [HS]; · iexact HS
        iexact Hg
      isplitl [Ho]; · iexact Ho
      isplitl [H0]; · iexact H0
      isplitl [H1]; · iexact H1
      iexists _; iexact H2
  · have hc0 : ¬cond1_0 (grid1.coords t) := fun h => h0 ((hcond1_0 t).mp h)
    have hz : t.val ≠ 0 := fun e => h0 (by rw [e])
    by_cases h7 : t.val % 8 = 7
    · have hc1 : cond1_1 (grid1.coords t) := (hcond1_1 t).mpr h7
      rw [show (dat1 V c).leavesExact 2 t = owns (c : Thread nD τ) (ms1_2 t) fullShare ((dat1 V c).after 2 t) from by
        unfold Dat.leavesExact; rw [liveAt1_2 t hc1], after1_2]
      rw [accAt_step V c t h0]
      rw [PhiS_castSucc V c t, PhiS_pos V c _ _ hz]
      iintro ⟨⟨Hr, HS, Hg⟩, Ho, ⟨%d0, H0⟩, ⟨%d1, H1⟩, ⟨%d2, H2⟩⟩
      iapply (sound_kernel1_C c Set.univ (grid1.coords t) _ _ _ _ _ _ _ _ hc0 hc1 (iblk1 V c 0 t) (iblk1 V c 1 t) _ _ _)
      isplitl [H0]; · iexact H0
      isplitl [H1]; · iexact H1
      isplitl [H2]; · iexact H2
      isplitl [HS]; · iexact HS
      iintro ⟨H0, H1, H2, HS⟩
      isplitl [Hr HS Hg]
      · isplitl [Hr]; · iexact Hr
        isplitl [HS]; · iexact HS
        iexact Hg
      isplitl [Ho]; · iexact Ho
      isplitl [H0]; · iexact H0
      isplitl [H1]; · iexact H1
      iexact H2
    · have hc1 : ¬cond1_1 (grid1.coords t) := fun h => h7 ((hcond1_1 t).mp h)
      rw [Dat.leavesExact_idle (dat1 V c) 2 t (idleAt1_2 t hc1) (noFlush1_2 t hc1)]
      rw [accAt_step V c t h0]
      rw [PhiS_castSucc V c t, PhiS_pos V c _ _ hz]
      iintro ⟨⟨Hr, HS, Hg⟩, Ho, ⟨%d0, H0⟩, ⟨%d1, H1⟩, ⟨%d2, H2⟩⟩
      iapply (sound_kernel1_B c Set.univ (grid1.coords t) _ _ _ _ _ _ _ _ hc0 hc1 (iblk1 V c 0 t) (iblk1 V c 1 t) _ _ _)
      isplitl [H0]; · iexact H0
      isplitl [H1]; · iexact H1
      isplitl [H2]; · iexact H2
      isplitl [HS]; · iexact HS
      iintro ⟨H0, H1, H2, HS⟩
      isplitl [Hr HS Hg]
      · isplitl [Hr]; · iexact Hr
        isplitl [HS]; · iexact HS
        iexact Hg
      isplitl [Ho]; · iexact Ho
      isplitl [H0]; · iexact H0
      isplitl [H1]; · iexact H1
      iexists _; iexact H2

theorem body_obligation1 (c : Dev nD) : BodyObligation (dat1 (F := F) V c) (defs₀ (F := F)) Variants.none () Set.univ := fun t => by
  rw [bigSep_W1, bigSep_W1]
  exact sound_body1 V c t

/-- After the last point the invariant gives back what the call was handed: the scratch's contents are forgotten. -/
theorem Phi_out1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 128 := N_1; omega)]
  refine .trans ?_ (PhiA1_join c)
  iintro ⟨Hr, HS, Hg⟩
  isplitl [Hr]; · iexact Hr
  isplitl [HS]; · iexists _; iexact HS
  iexact Hg

end Cert.KernelIdeal.Frm

end
-- ==== Proof.KI.Run.lean ====
/-
  The whole run of @main: the projection call, then the aggregation call, from any launch memory. Between the
  calls every unscoped buffer is held at named contents: at launch the memory `m`; after the first call the same
  but for H, which holds what the eight write-backs left; after the second the same again but for the result,
  which holds what the sixteen write-backs left. Every weakly fair execution terminates, and the final memory is
  the last of these valuations — so each argument ends as launched, and the result ends at the second call's
  written-back array. Stated for any float instance.
-/
import proofs.«102156_j26663156974292_1_alg».proof.Proof.KI.Region0
import proofs.«102156_j26663156974292_1_alg».proof.Proof.KI.Region1

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at the three boundaries -/

/-- At launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the projection call: its arrays at what its write-backs leave, every other buffer as before. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the aggregation call. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-! ### The arguments end as launched: each is an input of one call and bypasses the other -/

theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := W2_of_ne m ρ c main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := (W1_arr m ρ c 1).trans (((dat0 (V0 m ρ) c).arrAt_in 1 rfl _).trans (A_eq0 (V0 m ρ) c 1))
    _ = m ((c : Thread nD τ).loc main_arg2) := rfl
theorem W2_main_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := (W1_arr m ρ c 2).trans (((dat0 (V0 m ρ) c).arrAt_in 2 rfl _).trans (A_eq0 (V0 m ρ) c 2))
    _ = m ((c : Thread nD τ).loc main_arg3) := rfl
theorem W1_main_arg1 (c : Dev nD) : W1 m ρ c (Proc.devRef .tc main_arg1) = m ((c : Thread nD τ).loc main_arg1) :=
  (W1_of_ne m ρ c main_arg1 (by decide)).trans rfl
theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := (W2_arr m ρ c 0).trans (((dat1 (V1 m ρ) c).arrAt_in 0 rfl _).trans (A_eq1 (V1 m ρ) c 0))
    _ = m ((c : Thread nD τ).loc main_arg1) := W1_main_arg1 m ρ c
/-- H, as the second call finds it, is what the first call's write-backs left. -/
theorem V1_main_v0 (c : Dev nD) : V1 m ρ c main_v0 = (dat0 (V0 m ρ) c).arrAt 3 cfg0.N := W1_arr m ρ c 3
/-- The result at the end is what the second call's write-backs left. -/
theorem W2_main_v1 (c : Dev nD) : W2 m ρ c (Proc.devRef .tc main_v1) = (dat1 (V1 m ρ) c).arrAt 2 cfg1.N := W2_arr m ρ c 2

/-! ## The proof data family and the thread state -/

abbrev adm : (p : Fin 2) → (pcfgs (F := F) p).Adm := fun p => (cfgs p).toPCfg_adm
/-- Each call's proof data at its entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m ρ c) ∗ ∃ r, prngReg c r)

/-! ## The two calls as segments: each is entered with every unscoped buffer at one boundary's contents and left
    with them at the next; its arrays are split out of the unscoped buffers at entry and put back at exit; the
    generator register passes through its invariant; nothing is owed and the kernels have no semaphore of their own.
    The aggregation call's invariant ends with the scratch at the last accumulation, which is forgotten. -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    have hΦ : (pdats m ρ 1 c).Φ (Fin.last _) ⊢ (Pipeline.ΦA spec1 c : sProp 𝕄) := Phi_out1 (V1 m ρ) c
    refine hΦ.trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as the two segments, and the launch -/

abbrev segs : List (Pipeline.Seg (pcfgs (F := F)) adm (pdats m ρ) () defs₀ 𝒱₀ L lv) :=
  [ .region (reg0 m ρ), .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and in the final memory every unscoped buffer holds the last valuation `W2`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W2_main_arg0 m ρ c),
     (h c _ (mem_uc main_arg1 (by decide))).trans (W2_main_arg1 m ρ c),
     (h c _ (mem_uc main_arg2 (by decide))).trans (W2_main_arg2 m ρ c),
     (h c _ (mem_uc main_arg3 (by decide))).trans (W2_main_arg3 m ρ c)⟩) (run_all m ρ)

/-- The run with the result named: it ends at what the aggregation call's write-backs leave, the arguments as launched. -/
theorem run_value : θ_run defs (onTc (τ := τ) (main (F := F))) ⟨m, fun _ => 0, ρ⟩ (fun r => ∀ c : Dev nD,
      r.2.mem ((c.tc : Thread nD τ).loc main_v1) = (dat1 (V1 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v1 (by decide))).trans (W2_main_v1 m ρ c),
     (h c _ (mem_uc main_arg0 (by decide))).trans (W2_main_arg0 m ρ c),
     (h c _ (mem_uc main_arg1 (by decide))).trans (W2_main_arg1 m ρ c),
     (h c _ (mem_uc main_arg2 (by decide))).trans (W2_main_arg2 m ρ c),
     (h c _ (mem_uc main_arg3 (by decide))).trans (W2_main_arg3 m ρ c)⟩) (run_all m ρ)

end Cert.KernelIdeal.Frm

end
-- ==== Proof.KI.Value0.lean ====
/-
  The projection call at the ideal instance, read index by index. A float is an extended real, a change of format is the
  identity, and a product into a zero start is a plain finite sum. Point t of the eight is handed rows 2048·t … 2048·t + 2047
  of X, all of W and all of b; at local row p and column q its block holds Σ_k X[2048·t + p, k] · W[k, q] + b[q]: the
  512-term sum of the block product, plus the bias row broadcast along the rows. The reference's third stage at row r,
  column q is Σ_k X[r, k] · W[k, q] + b[q]. So what point t writes back is rows 2048·t … 2048·t + 2047 of that stage; every
  point writes back, and row r lies in the block of point r / 2048, so the eight blocks tile H and H ends as the stage.
-/
import proofs.«102156_j26663156974292_1_alg».proof.Proof.KI.Region0
import proofs.«102156_j26663156974292_1_alg».proof.Proof.Gen.ReferenceIdeal.Read
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Frm

open Cert.KernelIdeal Cert.KernelIdeal.Gen
open Idealize.ShloMosaic Idealize.ShloMosaic.TcCoe
open Idealize.ShloMosaic.Pipeline (Dat)
open Idealize.ShloMosaic.ValueIdx
open scoped BigOperators

variable (V : (c : Dev nD) → (b : Ref sig .tc) → Buf (Elt Ideal) ((c : Thread nD τ).loc b))

/-- The three arrays the projection call reads, at their literal types: X, W and b. -/
abbrev Xarr (c : Dev nD) : Vec Ideal S16384x512 .f32 := V c main_arg0
abbrev Warr (c : Dev nD) : Vec Ideal S512x256 .f32 := V c main_arg2
abbrev Barr (c : Dev nD) : Vec Ideal S256 .f32 := V c main_arg3

namespace Value0

theorem hz2 : (![0, 0] : Fin 2 → Nat) = fun _ => 0 := funext fun a => by fin_cases a <;> rfl
theorem hz1 : (![0] : Fin 1 → Nat) = fun _ => 0 := funext fun a => by fin_cases a <;> rfl

/-- The one store takes the whole block and each load reads its whole buffer: the block the body leaves is the payload of the
    three input blocks. -/
theorem out0_3_eq (x0 : Vec Ideal S2048x512 .f32) (x1 : Vec Ideal S512x256 .f32) (x2 : Vec Ideal S256 .f32) :
    out0_3 x0 x1 x2 = k0_pay1 x0 x1 x2 := by
  unfold out0_3
  rw [View.canon_unit_zero hz2]
  rw [View.ld_unit_zero (S := S2048x512) hz2, View.ld_unit_zero (S := S512x256) hz2, View.ld_unit_zero (S := S256) hz1]

/-! ## The block product read at an index -/

abbrev D0 := dot_S2048x512_S512x256_S2048x256_1_0_0_1_n_n

theorem lhs0_0 (i : S2048x256.Idx) (q : D0.contr.Idx) : (D0.lhsIdx i q 0).val = (i 0).val := by
  unfold DotDims.lhsIdx
  rw [dif_neg (show ¬(0 : Fin S2048x512.rank) ∈ D0.lhsBatch by decide), dif_pos (show (0 : Fin S2048x512.rank) ∈ D0.lhsNonContracting by decide)]
  rfl
theorem lhs0_1 (i : S2048x256.Idx) (q : D0.contr.Idx) : (D0.lhsIdx i q 1).val = (q ⟨0, by decide⟩).val :=
  D0.lhsIdx_val_of_single rfl i q
theorem rhs0_0 (i : S2048x256.Idx) (q : D0.contr.Idx) : (D0.rhsIdx i q 0).val = (q ⟨0, by decide⟩).val :=
  D0.rhsIdx_val_of_single rfl i q
theorem rhs0_1 (i : S2048x256.Idx) (q : D0.contr.Idx) : (D0.rhsIdx i q 1).val = (i 1).val := by
  unfold DotDims.rhsIdx
  rw [dif_neg (show ¬(1 : Fin S512x256.rank) ∈ D0.rhsBatch by decide), dif_pos (show (1 : Fin S512x256.rank) ∈ D0.rhsNonContracting by decide)]
  rfl

/-- The product of a block of rows with W into a zero start, at row p and column q: the sum over the 512 inner indices. -/
theorem matmul0_apply (a : FVec Ideal S2048x512 .bf16) (b : FVec Ideal S512x256 .bf16) (p : Fin 2048) (q : Fin 256) :
    (matmul (F := Ideal) D0 none a b (constant (F := Ideal) S2048x256 .f32 0x00000000#32) : FVec Ideal S2048x256 .f32) (ix2 p q)
      = ∑ k : Fin 512, a (ix2 p k) * b (ix2 k q) := by
  simp only [matmul]
  rw [Ideal.matmul_constant_zero_apply, ← Equiv.sum_comp (ValueIdx.contrEquiv1 D0 512 rfl rfl).symm]
  refine Finset.sum_congr rfl fun k _ => ?_
  have hk := ValueIdx.contrEquiv1_symm_val D0 512 rfl rfl k
  have el : D0.lhsIdx (ix2 p q) ((ValueIdx.contrEquiv1 D0 512 rfl rfl).symm k) = ix2 p k := funext fun a => Fin.ext (by
    match a with
    | ⟨0, _⟩ => exact lhs0_0 _ _
    | ⟨1, _⟩ => exact (lhs0_1 _ _).trans hk)
  have er : D0.rhsIdx (ix2 p q) ((ValueIdx.contrEquiv1 D0 512 rfl rfl).symm k) = ix2 k q := funext fun a => Fin.ext (by
    match a with
    | ⟨0, _⟩ => exact (rhs0_0 _ _).trans hk
    | ⟨1, _⟩ => exact rhs0_1 _ _)
  rw [el, er]

/-- The payload at row p, column q of the block: the 512-term sum of products plus the bias at q. -/
theorem k0_pay1_apply (x0 : Vec Ideal S2048x512 .f32) (x1 : Vec Ideal S512x256 .f32) (x2 : Vec Ideal S256 .f32)
    (p : Fin 2048) (q : Fin 256) :
    k0_pay1 (F := Ideal) x0 x1 x2 (ix2 p q) = (∑ k : Fin 512, x0 (ix2 p k) * x1 (ix2 k q)) + x2 (ix1 q) := by
  unfold k0_pay1
  refine (addf_apply _ _ _).trans ?_
  refine congrArg₂ (· + ·) ?_ ?_
  · exact matmul0_apply _ _ p q
  · refine (broadcastTo_1b_ab_apply _ _ p q).trans ?_
    exact shapeCast_a_1a_apply x2 _ 0 q

/-! ## The blocks a point is handed, read at an index -/

/-- The printed index maps, decided over the grid: X's and H's row block is the point, every other block index is 0. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

theorem lt8 (t : Fin cfg0.N) : t.val < 8 := lt_of_lt_of_eq t.isLt N_0

/-- Row p of point t's block is row 2048·t + p of the array. -/
abbrev rowOf (t : Fin cfg0.N) (p : Fin 2048) : Fin 16384 := ⟨2048 * t.val + p.val, by have := lt8 t; omega⟩

/-- Point t's block of X at (p, k) is X at (2048·t + p, k). -/
theorem iblk0_0_apply (c : Dev nD) (t : Fin cfg0.N) (p : Fin 2048) (k : Fin 512) :
    iblk0 (F := Ideal) V c 0 t (ix2 p k) = Xarr V c (ix2 (rowOf t p) k) := by
  show Xarr V c (((cfg0.win 0).blk t).view.emb (ix2 p k)) = _
  refine congrArg (Xarr V c) (funext fun a => Fin.ext ?_)
  obtain ⟨e0, e1, -⟩ := idx_facts0 t
  match a with
  | ⟨0, _⟩ => show win0_0.index t (0 : Fin 2) * 2048 + 1 * p.val = 2048 * t.val + p.val; omega
  | ⟨1, _⟩ => show win0_0.index t (1 : Fin 2) * 512 + 1 * k.val = k.val; omega

/-- Every point's block of W is W. -/
theorem iblk0_1_apply (c : Dev nD) (t : Fin cfg0.N) (k : Fin 512) (q : Fin 256) :
    iblk0 (F := Ideal) V c 1 t (ix2 k q) = Warr V c (ix2 k q) := by
  show Warr V c (((cfg0.win 1).blk t).view.emb (ix2 k q)) = _
  refine congrArg (Warr V c) (funext fun a => Fin.ext ?_)
  obtain ⟨-, -, e2, e3, -⟩ := idx_facts0 t
  match a with
  | ⟨0, _⟩ => show win0_1.index t (0 : Fin 2) * 512 + 1 * k.val = k.val; omega
  | ⟨1, _⟩ => show win0_1.index t (1 : Fin 2) * 256 + 1 * q.val = q.val; omega

/-- Every point's block of b is b. -/
theorem iblk0_2_apply (c : Dev nD) (t : Fin cfg0.N) (q : Fin 256) :
    iblk0 (F := Ideal) V c 2 t (ix1 q) = Barr V c (ix1 q) := by
  show Barr V c (((cfg0.win 2).blk t).view.emb (ix1 q)) = _
  refine congrArg (Barr V c) (funext fun a => Fin.ext ?_)
  obtain ⟨-, -, -, -, e4, -⟩ := idx_facts0 t
  match a with
  | ⟨0, _⟩ => show win0_2.index t (0 : Fin 1) * 256 + 1 * q.val = q.val; omega

/-! ## The reference's third stage read at an index -/

/-- The reference at row r, column q: the 512-term sum of X[r,k]·W[k,q], plus b[q]. -/
theorem ref3_apply (x0 : Vec Ideal S16384x512 .f32) (x2 : Vec Ideal S512x256 .f32) (x3 : Vec Ideal S256 .f32)
    (r : Fin 16384) (q : Fin 256) :
    Cert.ReferenceIdeal.Read.val_main_v3 (F := Ideal) x0 x2 x3 (ix2 r q)
      = (∑ k : Fin 512, x0 (ix2 r k) * x2 (ix2 k q)) + x3 (ix1 q) := by
  rw [Cert.ReferenceIdeal.Read.val_main_v3_apply, Cert.ReferenceIdeal.Read.val_main_v0_apply,
    Cert.ReferenceIdeal.Read.val_main_v2_apply, Cert.ReferenceIdeal.Read.val_main_v1_apply]
  show (∑ k : Fin 512, x0 (Cert.ReferenceIdeal.Read.lidx_main_v0 (ix2 r q) k) * x2 (Cert.ReferenceIdeal.Read.ridx_main_v0 (ix2 r q) k))
      + x3 (Cert.ReferenceIdeal.Read.idx_main_v1 (Cert.ReferenceIdeal.Read.idx_main_v2 (ix2 r q))) = _
  have el : ∀ k : Fin 512, Cert.ReferenceIdeal.Read.lidx_main_v0 (ix2 r q) k = ix2 r k := fun k =>
    funext fun a => match a with | ⟨0, _⟩ => rfl | ⟨1, _⟩ => rfl
  have er : ∀ k : Fin 512, Cert.ReferenceIdeal.Read.ridx_main_v0 (ix2 r q) k = ix2 k q := fun k =>
    funext fun a => match a with | ⟨0, _⟩ => rfl | ⟨1, _⟩ => rfl
  have eb : Cert.ReferenceIdeal.Read.idx_main_v1 (Cert.ReferenceIdeal.Read.idx_main_v2 (ix2 r q)) = ix1 q :=
    funext fun a => match a with | ⟨0, _⟩ => rfl
  rw [eb]
  exact congrArg (· + x3 (ix1 q)) (Finset.sum_congr rfl fun k _ => by rw [el, er])

/-! ## What a point writes back -/

/-- Point t writes back rows 2048·t … 2048·t + 2047 of the reference's third stage. -/
theorem flushed0_eq (c : Dev nD) (t : Fin cfg0.N) :
    (dat0 (F := Ideal) V c).flushed 3 t
      = ((cfg0.win 3).blk t).view.read (Elt Ideal)
          (Cert.ReferenceIdeal.Read.val_main_v3 (F := Ideal) (V c main_arg0) (V c main_arg2) (V c main_arg3)) := by
  show (cfg0.win 3).cut (grid0.coords t) ((dat0 (F := Ideal) V c).after 3 t) = _
  rw [after0_3, out0_3_eq]
  funext j
  obtain ⟨p, q, rfl⟩ : ∃ (p : Fin 2048) (q : Fin 256), j = ix2 p q := ⟨j 0, j 1, eq_ix2 j⟩
  show k0_pay1 (F := Ideal) (iblk0 V c 0 t) (iblk0 V c 1 t) (iblk0 V c 2 t) (ix2 p q)
      = Cert.ReferenceIdeal.Read.val_main_v3 (F := Ideal) (Xarr V c) (Warr V c) (Barr V c) (((cfg0.win 3).blk t).view.emb (ix2 p q))
  have he : ((cfg0.win 3).blk t).view.emb (ix2 p q) = ix2 (rowOf t p) q := by
    funext a; apply Fin.ext
    obtain ⟨-, -, -, -, -, e5, e6⟩ := idx_facts0 t
    match a with
    | ⟨0, _⟩ => show win0_3.index t (0 : Fin 2) * 2048 + 1 * p.val = 2048 * t.val + p.val; omega
    | ⟨1, _⟩ => show win0_3.index t (1 : Fin 2) * 256 + 1 * q.val = q.val; omega
  rw [he, ref3_apply, k0_pay1_apply, iblk0_2_apply]
  exact congrArg (· + Barr V c (ix1 q)) (Finset.sum_congr rfl fun k _ => by rw [iblk0_0_apply, iblk0_1_apply])

/-! ## The eight blocks tile H -/

/-- An index of H is in point t's block iff each coordinate is in the block's range on its axis. -/
theorem mem_blk0 (t : Fin cfg0.N) (i : S16384x256.Idx) :
    i ∈ ((cfg0.win 3).blk t).view.set ↔ ∀ a : Fin 2, win0_3.index t a * S2048x256.size a ≤ (i a).val
      ∧ (i a).val < win0_3.index t a * S2048x256.size a + S2048x256.size a := by
  show i ∈ ((View.whole main_v0).slice (win0_3.rect t)).set ↔ _
  rw [View.set_slice_whole, Rect.mem_set_unit]
  exact Iff.rfl

/-- Row r of H is in the block of point r / 2048, and every point writes its block back. -/
theorem cover0 (i : S16384x256.Idx) :
    ∃ t : Fin cfg0.N, (cfg0.win 3).flush t = true ∧ i ∈ ((cfg0.win 3).blk t).view.set := by
  have hi0 : (i 0).val < 16384 := (i 0).isLt
  have hi1 : (i 1).val < 256 := (i 1).isLt
  have hN : (i 0).val / 2048 < cfg0.N := lt_of_lt_of_eq (by omega : (i 0).val / 2048 < 8) N_0.symm
  refine ⟨⟨(i 0).val / 2048, hN⟩, flush0_3 _, ?_⟩
  rw [mem_blk0]
  obtain ⟨-, -, -, -, -, e5, e6⟩ := idx_facts0 ⟨(i 0).val / 2048, hN⟩
  have e5' : win0_3.index ⟨(i 0).val / 2048, hN⟩ (0 : Fin 2) = (i 0).val / 2048 := e5
  intro a
  match a with
  | ⟨0, _⟩ =>
    show win0_3.index ⟨(i 0).val / 2048, hN⟩ (0 : Fin 2) * 2048 ≤ (i 0).val
      ∧ (i 0).val < win0_3.index ⟨(i 0).val / 2048, hN⟩ (0 : Fin 2) * 2048 + 2048
    omega
  | ⟨1, _⟩ =>
    show win0_3.index ⟨(i 0).val / 2048, hN⟩ (1 : Fin 2) * 256 ≤ (i 1).val
      ∧ (i 1).val < win0_3.index ⟨(i 0).val / 2048, hN⟩ (1 : Fin 2) * 256 + 256
    omega

end Value0

open Value0

/-! ## The array the projection call leaves -/

/-- What the projection call's eight write-backs leave in H: row r, column q holds Σ_k X[r,k]·W[k,q] + b[q], which is the reference's third stage. -/
theorem arrAt0_eq (c : Dev nD) :
    (dat0 (F := Ideal) V c).arrAt 3 cfg0.N
      = Cert.ReferenceIdeal.Read.val_main_v3 (F := Ideal) (V c main_arg0) (V c main_arg2) (V c main_arg3) :=
  (dat0 (F := Ideal) V c).arrAt_eq_of_cover 3 _ (fun t _ => flushed0_eq V c t) (fun i => cover0 i)

end Cert.KernelIdeal.Frm

end
-- ==== Proof.KI.Acc.lean ====
/-
  The accumulation of the aggregation call at the ideal instance, at an index: at the last point of a row of the
  grid (k = 7) the scratch holds, at local index (p, q) of row block i, the full sum over all 16384 columns j of
  A_hat[1024·i + p, j] · H[j, q] — the eight blocks' partial sums of 2048 terms each, added to a zero start in
  order, are one sum over the extended reals (addition there is associative and commutative with 0 neutral).
-/
import proofs.«102156_j26663156974292_1_alg».proof.Proof.KI.Region1Data
import proofs.«102156_j26663156974292_1_alg».proof.Proof.Gen.ReferenceIdeal.Read
import Idealize.ShloMosaic.PureOps.Ideal.Laws
import Idealize.ShloMosaic.Lib.ValueIdx
import Idealize.ShloMosaic.Lib.Pipeline.Value

set_option maxRecDepth 16384

noncomputable section

namespace Cert.KernelIdeal.Frm

open Cert.KernelIdeal Cert.KernelIdeal.Gen
open Idealize.ShloMosaic Idealize.ShloMosaic.TcCoe
open Idealize.ShloMosaic.Pipeline (Dat)
open Idealize.ShloMosaic.ValueIdx
open scoped BigOperators

variable (V : (c : Dev nD) → (b : Ref sig .tc) → Buf (Elt Ideal) ((c : Thread nD τ).loc b))

/-- A_hat and H as the aggregation call finds them, at their literal types. -/
abbrev Aarr (c : Dev nD) : Vec Ideal S16384x16384 .f32 := V c main_arg1
abbrev Harr (c : Dev nD) : Vec Ideal S16384x256 .f32 := V c main_v0

namespace Acc

/-! ## The body's two stores at an index -/

/-- The dimension numbers of the block product: rows × contraction times contraction × columns. -/
abbrev D1 := dot_S1024x2048_S2048x256_S1024x256_1_0_0_1_n_n

theorem d1_lhs_0 (j : S1024x256.Idx) (q : D1.contr.Idx) : (D1.lhsIdx j q 0).val = (j 0).val := by
  unfold DotDims.lhsIdx
  rw [dif_neg (show ¬(0 : Fin S1024x2048.rank) ∈ D1.lhsBatch by decide), dif_pos (show (0 : Fin S1024x2048.rank) ∈ D1.lhsNonContracting by decide)]
  rfl
theorem d1_lhs_1 (j : S1024x256.Idx) (q : D1.contr.Idx) : (D1.lhsIdx j q 1).val = (q ⟨0, by decide⟩).val :=
  D1.lhsIdx_val_of_single rfl j q
theorem d1_rhs_0 (j : S1024x256.Idx) (q : D1.contr.Idx) : (D1.rhsIdx j q 0).val = (q ⟨0, by decide⟩).val :=
  D1.rhsIdx_val_of_single rfl j q
theorem d1_rhs_1 (j : S1024x256.Idx) (q : D1.contr.Idx) : (D1.rhsIdx j q 1).val = (j 1).val := by
  unfold DotDims.rhsIdx
  rw [dif_neg (show ¬(1 : Fin S2048x256.rank) ∈ D1.rhsBatch by decide), dif_pos (show (1 : Fin S2048x256.rank) ∈ D1.rhsNonContracting by decide)]
  rfl

/-- The accumulating store at local (p, q): what the scratch held there plus the 2048 products of row p of the
    first block with column q of the second (the narrowing format changes and the same-shape casts are the identity,
    and the product into the zero splat is the plain sum over the contraction axis). -/
theorem pay2_apply (x0 : Vec Ideal S1024x2048 .f32) (x1 : Vec Ideal S2048x256 .f32) (a : Vec Ideal S1024x256 .f32)
    (p : Fin 1024) (q : Fin 256) :
    k1_pay2 (F := Ideal) x0 x1 a (ix2 p q) = a (ix2 p q) + ∑ k : Fin 2048, x0 (ix2 p k) * x1 (ix2 k q) := by
  unfold k1_pay2
  rw [shapeCast_self, shapeCast_self]
  refine (addf_apply _ _ _).trans ?_
  refine congrArg (a (ix2 p q) + ·) ?_
  refine (Ideal.matmul_constant_zero_apply D1 none _ _ (ix2 p q)).trans ?_
  rw [← Equiv.sum_comp (contrEquiv1 D1 2048 rfl rfl).symm]
  refine Finset.sum_congr rfl fun k _ => ?_
  have hk := contrEquiv1_symm_val D1 2048 rfl rfl k
  have el : D1.lhsIdx (ix2 p q) ((contrEquiv1 D1 2048 rfl rfl).symm k) = ix2 p k := funext fun b => Fin.ext (by
    match b with
    | ⟨0, _⟩ => exact d1_lhs_0 _ _
    | ⟨1, _⟩ => exact (d1_lhs_1 _ _).trans hk)
  have er : D1.rhsIdx (ix2 p q) ((contrEquiv1 D1 2048 rfl rfl).symm k) = ix2 k q := funext fun b => Fin.ext (by
    match b with
    | ⟨0, _⟩ => exact (d1_rhs_0 _ _).trans hk
    | ⟨1, _⟩ => exact d1_rhs_1 _ _)
  rw [el, er]
  rfl

/-- The zeroing store is 0 everywhere. -/
theorem pay1_apply (p : Fin 1024) (q : Fin 256) : k1_pay1 (F := Ideal) (ix2 p q) = 0 := by
  unfold k1_pay1
  rw [shapeCast_self]
  exact Ideal.ofBits_zero_f32

/-! ## The two blocks a point is handed, at an index -/

/-- The printed index maps over the 128 points: point t = 8·i + k is handed block (i, k) of A_hat and block (k, 0) of H. -/
theorem idx_facts1 : ∀ t : Fin cfg1.N, win1_0.index t (0 : Fin 2) = t.val / 8 ∧ win1_0.index t (1 : Fin 2) = t.val % 8
    ∧ win1_1.index t (0 : Fin 2) = t.val % 8 ∧ win1_1.index t (1 : Fin 2) = 0 :=
  (by decide +kernel : ∀ t : Fin grid1.N, win1_0.index t (0 : Fin 2) = t.val / 8 ∧ win1_0.index t (1 : Fin 2) = t.val % 8
    ∧ win1_1.index t (0 : Fin 2) = t.val % 8 ∧ win1_1.index t (1 : Fin 2) = 0)

/-- The A_hat block of point t at local (p, k) is A_hat at (1024·(t / 8) + p, 2048·(t % 8) + k). -/
theorem iblk1_0_apply (c : Dev nD) (t : Fin cfg1.N) (x0 : Vec Ideal S1024x2048 .f32) (hx0 : x0 = iblk1 (F := Ideal) V c 0 t)
    (p : Fin 1024) (k : Fin 2048)
    (hr : 1024 * (t.val / 8) + p.val < 16384) (hc : 2048 * (t.val % 8) + k.val < 16384) :
    x0 (ix2 p k) = Aarr V c (ix2 (⟨1024 * (t.val / 8) + p.val, hr⟩ : Fin 16384) (⟨2048 * (t.val % 8) + k.val, hc⟩ : Fin 16384)) := by
  subst hx0
  obtain ⟨e0, e1, e2, e3⟩ := idx_facts1 t
  show V c main_arg1 (((cfg1.win 0).blk t).view.emb (ix2 p k)) = _
  refine congrArg (V c main_arg1) (funext fun a => Fin.ext ?_)
  match a with
  | ⟨0, _⟩ => show win1_0.index t (0 : Fin 2) * 1024 + 1 * p.val = 1024 * (t.val / 8) + p.val; omega
  | ⟨1, _⟩ => show win1_0.index t (1 : Fin 2) * 2048 + 1 * k.val = 2048 * (t.val % 8) + k.val; omega

/-- The H block of point t at local (k, q) is H at (2048·(t % 8) + k, q). -/
theorem iblk1_1_apply (c : Dev nD) (t : Fin cfg1.N) (x1 : Vec Ideal S2048x256 .f32) (hx1 : x1 = iblk1 (F := Ideal) V c 1 t)
    (k : Fin 2048) (q : Fin 256) (hc : 2048 * (t.val % 8) + k.val < 16384) :
    x1 (ix2 k q) = Harr V c (ix2 (⟨2048 * (t.val % 8) + k.val, hc⟩ : Fin 16384) q) := by
  subst hx1
  obtain ⟨e0, e1, e2, e3⟩ := idx_facts1 t
  show V c main_v0 (((cfg1.win 1).blk t).view.emb (ix2 k q)) = _
  refine congrArg (V c main_v0) (funext fun a => Fin.ext ?_)
  match a with
  | ⟨0, _⟩ => show win1_1.index t (0 : Fin 2) * 2048 + 1 * k.val = 2048 * (t.val % 8) + k.val; omega
  | ⟨1, _⟩ => show win1_1.index t (1 : Fin 2) * 256 + 1 * q.val = q.val; omega

/-! ## The partial sums along a row block -/

/-- One term of entry (r, q) of A_hat·H, as a function of a natural-number column index (0 past the last column). -/
def term (c : Dev nD) (r : Fin 16384) (q : Fin 256) (j : ℕ) : EReal :=
  if h : j < 16384 then Aarr V c (ix2 r (⟨j, h⟩ : Fin 16384)) * Harr V c (ix2 (⟨j, h⟩ : Fin 16384) q) else 0

/-- The product of the two blocks point t = 8·ii + kk is handed, at local (p, q), is the stretch
    2048·kk … 2048·kk + 2047 of the terms of row 1024·ii + p. -/
theorem block_sum (c : Dev nD) (t : Fin cfg1.N) (ii kk : ℕ) (hk : kk < 8) (ht : t.val = 8 * ii + kk)
    (x0 : Vec Ideal S1024x2048 .f32) (hx0 : x0 = iblk1 (F := Ideal) V c 0 t)
    (x1 : Vec Ideal S2048x256 .f32) (hx1 : x1 = iblk1 (F := Ideal) V c 1 t)
    (p : Fin 1024) (q : Fin 256) (r : Fin 16384) (hr : r.val = 1024 * ii + p.val) :
    ∑ k : Fin 2048, x0 (ix2 p k) * x1 (ix2 k q)
      = ∑ j ∈ Finset.range 2048, term V c r q (2048 * kk + j) := by
  rw [← Fin.sum_univ_eq_sum_range (fun j => term V c r q (2048 * kk + j)) 2048]
  refine Finset.sum_congr rfl fun k _ => ?_
  have hkl : k.val < 2048 := k.isLt
  have hpl : p.val < 1024 := p.isLt
  have hrl : r.val < 16384 := r.isLt
  have hc : 2048 * (t.val % 8) + k.val < 16384 := by omega
  have hrr : 1024 * (t.val / 8) + p.val < 16384 := by omega
  have hj : 2048 * kk + k.val < 16384 := by omega
  rw [iblk1_0_apply V c t x0 hx0 p k hrr hc, iblk1_1_apply V c t x1 hx1 k q hc]
  have e1 : (⟨1024 * (t.val / 8) + p.val, hrr⟩ : Fin 16384) = r := Fin.ext (by show 1024 * (t.val / 8) + p.val = r.val; omega)
  have e2 : (⟨2048 * (t.val % 8) + k.val, hc⟩ : Fin 16384) = ⟨2048 * kk + k.val, hj⟩ :=
    Fin.ext (by show 2048 * (t.val % 8) + k.val = 2048 * kk + k.val; omega)
  rw [e1, e2]
  show _ = term V c r q (2048 * kk + k.val)
  unfold term
  rw [dif_pos hj]

/-- THE INVARIANT along row block ii: after the point with column block kk the scratch holds, at local (p, q),
    the first 2048·(kk + 1) terms of row 1024·ii + p. -/
theorem acc_inv (c : Dev nD) (ii : ℕ) (p : Fin 1024) (q : Fin 256) (r : Fin 16384) (hr : r.val = 1024 * ii + p.val) :
    ∀ kk : ℕ, kk < 8 → ∀ (n : ℕ) (hn : n < cfg1.N), n = 8 * ii + kk →
      accAt (F := Ideal) V c n hn (ix2 p q) = ∑ j ∈ Finset.range (2048 * (kk + 1)), term V c r q j := by
  intro kk
  induction kk with
  | zero =>
    intro _ n hn hnn
    have h0 : (⟨n, hn⟩ : Fin cfg1.N).val % 8 = 0 := by show n % 8 = 0; omega
    have e : accAt (F := Ideal) V c n hn
        = k1_pay2 (iblk1 V c 0 ⟨n, hn⟩) (iblk1 V c 1 ⟨n, hn⟩) (k1_pay1 (F := Ideal)) := accAt_reset V c ⟨n, hn⟩ h0
    rw [e]
    refine (pay2_apply _ _ _ p q).trans ?_
    rw [pay1_apply, zero_add]
    refine (block_sum V c ⟨n, hn⟩ ii 0 (by omega) hnn _ rfl _ rfl p q r hr).trans ?_
    simp only [Nat.mul_zero, Nat.zero_add, Nat.mul_one]
  | succ kk ih =>
    intro hk n hn hnn
    have h0 : ¬ (⟨n, hn⟩ : Fin cfg1.N).val % 8 = 0 := by show ¬ n % 8 = 0; omega
    have hn' : n - 1 < cfg1.N := Nat.lt_of_le_of_lt (Nat.sub_le _ _) hn
    have e : accAt (F := Ideal) V c n hn
        = k1_pay2 (iblk1 V c 0 ⟨n, hn⟩) (iblk1 V c 1 ⟨n, hn⟩) (accAt (F := Ideal) V c (n - 1) hn') := accAt_step V c ⟨n, hn⟩ h0
    rw [e]
    refine (pay2_apply _ _ _ p q).trans ?_
    rw [ih (by omega) (n - 1) hn' (by omega)]
    rw [show 2048 * (kk + 1 + 1) = 2048 * (kk + 1) + 2048 by omega, Finset.sum_range_add]
    exact congrArg (_ + ·) (block_sum V c ⟨n, hn⟩ ii (kk + 1) hk hnn _ rfl _ rfl p q r hr)

end Acc

/-- AT THE LAST POINT OF A ROW OF THE GRID the scratch holds the whole contraction: the eight partial sums make up
    the sum over all 16384 columns, written with the reference's operand indices. -/
theorem accAt_last (c : Dev nD) (t : Fin cfg1.N) (h7 : t.val % 8 = 7) (y : S1024x256.Idx) (i : S16384x256.Idx)
    (h0 : (i 0).val = 1024 * (t.val / 8) + (y 0).val) (h1 : (i 1).val = (y 1).val) :
    accAt (F := Ideal) V c t.val t.isLt y
      = ∑ k : Fin 16384, Aarr V c (Cert.ReferenceIdeal.Read.lidx_main_v4 i k) * Harr V c (Cert.ReferenceIdeal.Read.ridx_main_v4 i k) := by
  obtain ⟨p, q, rfl⟩ : ∃ (p : Fin 1024) (q : Fin 256), y = ix2 p q := ⟨y 0, y 1, eq_ix2 y⟩
  have h0' : (i 0).val = 1024 * (t.val / 8) + p.val := h0
  have h1' : (i 1).val = q.val := h1
  have hi0 : (i 0).val < 16384 := (i 0).isLt
  rw [Acc.acc_inv V c (t.val / 8) p q ⟨(i 0).val, hi0⟩ h0' 7 (by omega) t.val t.isLt (by omega)]
  rw [show 2048 * (7 + 1) = 16384 from rfl, ← Fin.sum_univ_eq_sum_range (fun j => Acc.term V c ⟨(i 0).val, hi0⟩ q j) 16384]
  refine Finset.sum_congr rfl fun k _ => ?_
  unfold Acc.term
  rw [dif_pos k.isLt]
  have el : (ix2 (⟨(i 0).val, hi0⟩ : Fin 16384) (⟨k.val, k.isLt⟩ : Fin 16384) : S16384x16384.Idx) = Cert.ReferenceIdeal.Read.lidx_main_v4 i k :=
    funext fun a => by match a with | ⟨0, _⟩ => rfl | ⟨1, _⟩ => rfl
  have er : (ix2 (⟨k.val, k.isLt⟩ : Fin 16384) q : S16384x256.Idx) = Cert.ReferenceIdeal.Read.ridx_main_v4 i k :=
    funext fun a => Fin.ext (by match a with | ⟨0, _⟩ => rfl | ⟨1, _⟩ => exact h1'.symm)
  rw [el, er]

end Cert.KernelIdeal.Frm

end
-- ==== Proof.KI.Value1.lean ====
/-
  The aggregation call's result as one array: the sixteen row blocks the call writes back (one at the last
  point k = 7 of each row of the grid) tile the 16384 × 256 result, and each holds the full sums over the
  16384 columns of A_hat, so the result is A_hat · H entry by entry.
-/
import proofs.«102156_j26663156974292_1_alg».proof.Proof.KI.Acc

set_option maxRecDepth 16384

noncomputable section

namespace Cert.KernelIdeal.Frm

open Cert.KernelIdeal Cert.KernelIdeal.Gen
open Idealize.ShloMosaic Idealize.ShloMosaic.TcCoe
open Idealize.ShloMosaic.Pipeline (Dat)
open scoped BigOperators

variable (V : (c : Dev nD) → (b : Ref sig .tc) → Buf (Elt Ideal) ((c : Thread nD τ).loc b))

/-- What the aggregation call's sixteen write-backs leave in the result: entry (r, q) holds Σ_j A_hat[r, j]·H[j, q]. -/
def aggr (A : Vec Ideal S16384x16384 .f32) (H : Vec Ideal S16384x256 .f32) : Vec Ideal S16384x256 .f32 :=
  fun i => ∑ k : Fin 16384, A (Cert.ReferenceIdeal.Read.lidx_main_v4 i k) * H (Cert.ReferenceIdeal.Read.ridx_main_v4 i k)

/-- The output window's block index at point t = 8·i + k is (i, 0), decided over the grid. -/
theorem idx_facts1_2 : ∀ t : Fin cfg1.N, win1_2.index t (0 : Fin 2) = t.val / 8 ∧ win1_2.index t (1 : Fin 2) = 0 :=
  (by decide +kernel : ∀ t : Fin grid1.N, win1_2.index t (0 : Fin 2) = t.val / 8 ∧ win1_2.index t (1 : Fin 2) = 0)

/-- What a writing point t (k = 7) writes back is its block of the product array. -/
theorem flushed1_2_eq (c : Dev nD) (t : Fin cfg1.N) (hf : (cfg1.win 2).flush t = true) :
    (dat1 (F := Ideal) V c).flushed 2 t = ((cfg1.win 2).blk t).view.read (Elt Ideal) (aggr (Aarr V c) (Harr V c)) := by
  show (cfg1.win 2).cut (grid1.coords t) ((dat1 (F := Ideal) V c).after 2 t) = _
  rw [after1_2]
  have h7 : t.val % 8 = 7 := (flush1_2 t).mp hf
  obtain ⟨e0, e1⟩ := idx_facts1_2 t
  funext y
  rw [View.read_apply]
  have hL : (cfg1.win 2).cut (grid1.coords t) (accAt (F := Ideal) V c t.val t.isLt) y = accAt (F := Ideal) V c t.val t.isLt y := rfl
  rw [hL, cast_eq]
  refine accAt_last V c t h7 y (((cfg1.win 2).blk t).view.emb y) ?_ ?_
  · show win1_2.index t (0 : Fin 2) * 1024 + 1 * (y 0).val = 1024 * (t.val / 8) + (y 0).val
    omega
  · show win1_2.index t (1 : Fin 2) * 256 + 1 * (y 1).val = (y 1).val
    omega

/-- An index of the result lies in point t's block iff each coordinate is in the block's range on its axis. -/
theorem mem_blk1_2 (t : Fin cfg1.N) (i : S16384x256.Idx) :
    i ∈ ((cfg1.win 2).blk t).view.set ↔ ∀ a : Fin 2, win1_2.index t a * S1024x256.size a ≤ (i a).val ∧ (i a).val < win1_2.index t a * S1024x256.size a + S1024x256.size a := by
  show i ∈ ((View.whole main_v1).slice (win1_2.rect t)).set ↔ _
  rw [View.set_slice_whole, Rect.mem_set_unit]
  exact Iff.rfl

/-- Row r of the result lies in the block written back at the last point of grid row r / 1024. -/
theorem cover1_2 (i : S16384x256.Idx) :
    ∃ t : Fin cfg1.N, (cfg1.win 2).flush t = true ∧ i ∈ ((cfg1.win 2).blk t).view.set := by
  have hi0 : (i 0).val < 16384 := (i 0).isLt
  have hi1 : (i 1).val < 256 := (i 1).isLt
  have hlt : 8 * ((i 0).val / 1024) + 7 < cfg1.N := by
    show 8 * ((i 0).val / 1024) + 7 < 128
    omega
  obtain ⟨e0, e1⟩ := idx_facts1_2 ⟨8 * ((i 0).val / 1024) + 7, hlt⟩
  have ev : (⟨8 * ((i 0).val / 1024) + 7, hlt⟩ : Fin cfg1.N).val = 8 * ((i 0).val / 1024) + 7 := rfl
  refine ⟨⟨8 * ((i 0).val / 1024) + 7, hlt⟩, (flush1_2 _).mpr (by rw [ev]; omega), ?_⟩
  rw [mem_blk1_2]
  intro a
  match a with
  | ⟨0, _⟩ =>
    show win1_2.index ⟨8 * ((i 0).val / 1024) + 7, hlt⟩ (0 : Fin 2) * 1024 ≤ (i 0).val ∧ (i 0).val < win1_2.index ⟨8 * ((i 0).val / 1024) + 7, hlt⟩ (0 : Fin 2) * 1024 + 1024
    rw [e0, ev]; omega
  | ⟨1, _⟩ =>
    show win1_2.index ⟨8 * ((i 0).val / 1024) + 7, hlt⟩ (1 : Fin 2) * 256 ≤ (i 1).val ∧ (i 1).val < win1_2.index ⟨8 * ((i 0).val / 1024) + 7, hlt⟩ (1 : Fin 2) * 256 + 256
    rw [e1]; omega

/-- THE RESULT after the aggregation call: the product array, entry by entry. -/
theorem arrAt1_eq (c : Dev nD) :
    (dat1 (F := Ideal) V c).arrAt 2 cfg1.N = aggr (Aarr V c) (Harr V c) :=
  (dat1 (F := Ideal) V c).arrAt_eq_of_cover 2 _ (fun t hf => flushed1_2_eq V c t hf) cover1_2

end Cert.KernelIdeal.Frm

end
-- ==== Proof.Bridge.lean ====
/-
  The two idealized programs compute one function. The kernel's result is what the aggregation call's
  write-backs leave: entry (r, q) = Σ_j A_hat[r, j] · H[j, q], where H, as that call finds it, is what the projection
  call's write-backs left: H[j, q] = Σ_k X[j, k] · W[k, q] + b[q]. The reference computes the same two stages by
  one dot_general each. So the two results agree entry by entry; the only law used is that a sum over the
  extended reals may be regrouped (eight partial sums of 2048 terms added in order to a zero start are the one
  sum of 16384 terms); no finiteness of the inputs is needed.
-/
import proofs.«102156_j26663156974292_1_alg».proof.Proof.KI.Run
import proofs.«102156_j26663156974292_1_alg».proof.Proof.KI.Value0
import proofs.«102156_j26663156974292_1_alg».proof.Proof.KI.Value1
import proofs.«102156_j26663156974292_1_alg».proof.Proof.Gen.ReferenceIdeal.Run
import proofs.«102156_j26663156974292_1_alg».proof.Proof.Gen.ReferenceIdeal.Read

set_option maxRecDepth 16384

noncomputable section

namespace Cert.KernelIdeal.Frm

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The kernel's result array is the reference's last stage of the launch contents of the four arguments. -/
theorem result_eq (c : Dev nD) :
    (dat1 (F := Ideal) (V1 m ρ) c).arrAt 2 cfg1.N
      = Cert.ReferenceIdeal.Read.val_main_v4 (F := Ideal) (m ((c.tc : Thread nD τ).loc main_arg0)) (m ((c.tc : Thread nD τ).loc main_arg1))
          (m ((c.tc : Thread nD τ).loc main_arg2)) (m ((c.tc : Thread nD τ).loc main_arg3)) := by
  rw [arrAt1_eq]
  have hA : Aarr (V1 m ρ) c = m ((c.tc : Thread nD τ).loc main_arg1) := W1_main_arg1 m ρ c
  have hH : Harr (V1 m ρ) c = Cert.ReferenceIdeal.Read.val_main_v3 (F := Ideal) (m ((c.tc : Thread nD τ).loc main_arg0))
      (m ((c.tc : Thread nD τ).loc main_arg2)) (m ((c.tc : Thread nD τ).loc main_arg3)) :=
    (V1_main_v0 m ρ c).trans (arrAt0_eq (V0 m ρ) c)
  rw [hA, hH]
  funext i
  rw [Cert.ReferenceIdeal.Read.val_main_v4_apply]
  rfl

end Cert.KernelIdeal.Frm

end
-- ==== Proof.lean ====
/-
  The certificate of a two-call graph convolution against its jnp reference: H = X·W + b by a first pallas_call
  (eight row blocks of 2048 rows, a bf16 matmul into an f32 zero accumulator plus the bias row), then
  O = A_hat·H by a second (a 16 × 8 grid: for each block of 1024 result rows a scratch accumulator is zeroed at
  the first of eight column blocks of A_hat, takes the product of each 1024 × 2048 block of A_hat with the matching
  2048 rows of H, and is copied out at the last). The reference is matmul(A_hat, matmul(X, W) + b).
  * The three frames: each program runs to its end from any memory, faults nowhere and leaves its four
    arguments unchanged. For the two kernel programs this is the run of the two calls one after the other, the
    second call's invariant carrying the scratch at the sum accumulated so far; for the reference it is its run
    as a sequence of five host operations.
  * preserves: the idealization rewrote nothing.
  * algebraic: at the ideal instance a change of float format is the identity and a matmul into a zero
    accumulator is a finite sum over the extended reals, so the kernel's result is Σ_j A_hat[r,j]·H[j,q] regrouped
    in eight partial sums, with H[j,q] = Σ_k X[j,k]·W[k,q] + b[q]: the reference's two stages. Only associativity
    and commutativity of the extended reals' addition are used; the inputs' finiteness is not.
-/
import proofs.«102156_j26663156974292_1_alg».proof.Defs
import proofs.«102156_j26663156974292_1_alg».proof.Proof.Gen.Kernel
import proofs.«102156_j26663156974292_1_alg».proof.Proof.Gen.KernelIdeal
import proofs.«102156_j26663156974292_1_alg».proof.Proof.Gen.ReferenceIdeal
import proofs.«102156_j26663156974292_1_alg».proof.Proof.Gen.Pre_finite_inputs
import proofs.«102156_j26663156974292_1_alg».proof.Proof.Gen.ReferenceIdeal.Run
import proofs.«102156_j26663156974292_1_alg».proof.Proof.Gen.ReferenceIdeal.Read
import proofs.«102156_j26663156974292_1_alg».proof.Proof.K.Run
import proofs.«102156_j26663156974292_1_alg».proof.Proof.KI.Run
import proofs.«102156_j26663156974292_1_alg».proof.Proof.Bridge
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Frm.frame m ρ

theorem frame_ki : Cert.frame_KernelIdeal (hKernelIdeal := Cert.KernelIdeal.Gen.facts) (hPre_finite_inputs := Cert.Pre_finite_inputs.Gen.facts) :=
  fun m ρ _ => Cert.KernelIdeal.Frm.frame m ρ

theorem frame_ri : Cert.frame_ReferenceIdeal (hReferenceIdeal := Cert.ReferenceIdeal.Gen.facts) (hPre_finite_inputs := Cert.Pre_finite_inputs.Gen.facts) :=
  fun m ρ _ =>
    (θ_run Cert.ReferenceIdeal.defs _ _).mono (fun _ h c => (h c).2) (Cert.ReferenceIdeal.Value.run (F := Ideal) m ρ)

/-- Both idealized programs end with the result at the reference's last stage of the arguments' launch contents. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => (Cert.KernelIdeal.Frm.dat1 (F := Ideal) (Cert.KernelIdeal.Frm.V1 m ρ) c).arrAt 2 Cert.KernelIdeal.cfg1.N,
    Cert.KernelIdeal.Frm.run_value (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, (hagree c).1, (hagree c).2.1, (hagree c).2.2.1, (hagree c).2.2.2]
  exact (Cert.KernelIdeal.Frm.result_eq m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
